-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x16384 .f32 .bf16
  ∧ IdealRules.truncf_extf.Statement Cert.KernelIdeal.S128x21 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256x256 : Shape := ⟨4, ![8, 128, 256, 256]⟩
abbrev S8x1x256x256 : Shape := ⟨4, ![8, 1, 256, 256]⟩
abbrev S_ : Shape := ⟨0, ![]⟩

class Facts : Prop where
  bcast_S_S8x128x256x256 : S_.BroadcastsInDim S8x128x256x256 (![] : Fin 0 → Fin S8x128x256x256.rank)
  reducesTo_S8x128x256x256_S_d0_1_2_3 : S8x128x256x256.ReducesTo [0, 1, 2, 3] S_
  h_S_ : 0 < S_.numel
  bcast_S_S8x1x256x256 : S_.BroadcastsInDim S8x1x256x256 (![] : Fin 0 → Fin S8x1x256x256.rank)
  reducesTo_S8x1x256x256_S_d0_1_2_3 : S8x1x256x256.ReducesTo [0, 1, 2, 3] S_

variable [Facts]

def fn {F : FTy → Type} [FloatOps F] (main_arg0 : FVec F S8x128x256x256 .f32) (main_arg1 : IVec S8x1x256x256 32) : IVec S_ 1 :=
  let main_v0 : FVec F S8x128x256x256 .f32 := Host.absf main_arg0
  let main_cst : FVec F S_ .f32 := constant S_ .f32 0x7F800000#32
  let main_v1 : FVec F S8x128x256x256 .f32 := broadcastInDim S8x128x256x256 ![] bcast_S_S8x128x256x256 main_cst
  let main_v2 : IVec S8x128x256x256 1 := cmpf .olt main_v0 main_v1
  let main_c : IVec S_ 1 := constantI S_ 1 1#1
  let main_v3 : IVec S_ 1 := (fun x v => Host.reduce IntOp.andi x v reducesTo_S8x128x256x256_S_d0_1_2_3 h_S_) main_v2 main_c
  let main_c_0 : IVec S_ 32 := constantI S_ 32 0#32
  let main_v4 : IVec S8x1x256x256 32 := broadcastInDim S8x1x256x256 ![] bcast_S_S8x1x256x256 main_c_0
  let main_v5 : IVec S8x1x256x256 1 := cmpi .sge main_arg1 main_v4
  let main_c_1 : IVec S_ 1 := constantI S_ 1 1#1
  let main_v6 : IVec S_ 1 := (fun x v => Host.reduce IntOp.andi x v reducesTo_S8x1x256x256_S_d0_1_2_3 h_S_) main_v5 main_c_1
  let main_v7 : IVec S_ 1 := andi main_v3 main_v6
  let main_c_2 : IVec S_ 32 := constantI S_ 32 21#32
  let main_v8 : IVec S8x1x256x256 32 := broadcastInDim S8x1x256x256 ![] bcast_S_S8x1x256x256 main_c_2
  let main_v9 : IVec S8x1x256x256 1 := cmpi .slt main_arg1 main_v8
  let main_c_3 : IVec S_ 1 := constantI S_ 1 1#1
  let main_v10 : IVec S_ 1 := (fun x v => Host.reduce IntOp.andi x v reducesTo_S8x1x256x256_S_d0_1_2_3 h_S_) main_v9 main_c_3
  let main_v11 : IVec S_ 1 := andi main_v7 main_v10
  main_v11
-- ==== Kernel.lean ====
abbrev S8x128x256x256 : Shape := ⟨4, ![8, 128, 256, 256]⟩
abbrev S8x1x256x256 : Shape := ⟨4, ![8, 1, 256, 256]⟩
abbrev S8x128x65536 : Shape := ⟨3, ![8, 128, 65536]⟩
abbrev S8x1x65536 : Shape := ⟨3, ![8, 1, 65536]⟩
abbrev S8x128x21 : Shape := ⟨3, ![8, 128, 21]⟩
abbrev S8x1x21 : Shape := ⟨3, ![8, 1, 21]⟩
abbrev S1x128x16384 : Shape := ⟨3, ![1, 128, 16384]⟩
abbrev S1x1x16384 : Shape := ⟨3, ![1, 1, 16384]⟩
abbrev S1x128x21 : Shape := ⟨3, ![1, 128, 21]⟩
abbrev S1x1x21 : Shape := ⟨3, ![1, 1, 21]⟩
abbrev S128x21 : Shape := ⟨2, ![128, 21]⟩
abbrev S1x21 : Shape := ⟨2, ![1, 21]⟩
abbrev S128x16384 : Shape := ⟨2, ![128, 16384]⟩
abbrev S1x16384 : Shape := ⟨2, ![1, 16384]⟩
abbrev S21x16384 : Shape := ⟨2, ![21, 16384]⟩
abbrev S129x16384 : Shape := ⟨2, ![129, 16384]⟩
abbrev S129x21 : Shape := ⟨2, ![129, 21]⟩
abbrev S128x42 : Shape := ⟨2, ![128, 42]⟩
abbrev S42x16384 : Shape := ⟨2, ![42, 16384]⟩

abbrev nBuf : Space → Nat
  | .hbm => 8
  | .vmem => 14
  | .smem => 0
  | _ => 0

abbrev bufTy : (tb : Table) → Fin (tcTables nBuf tb) → BufTy
  | .hbm, ⟨0, _⟩ => ⟨S8x128x256x256, .f32⟩
  | .hbm, ⟨1, _⟩ => ⟨S8x1x256x256, .i32⟩
  | .hbm, ⟨2, _⟩ => ⟨S8x128x65536, .f32⟩
  | .hbm, ⟨3, _⟩ => ⟨S8x1x65536, .i32⟩
  | .hbm, ⟨4, _⟩ => ⟨S8x128x21, .f32⟩
  | .hbm, ⟨5, _⟩ => ⟨S8x1x21, .f32⟩
  | .hbm, ⟨6, _⟩ => ⟨S8x128x65536, .f32⟩
  | .hbm, ⟨7, _⟩ => ⟨S8x128x256x256, .f32⟩
  | .local _ .vmem, ⟨0, _⟩ => ⟨S1x128x16384, .f32⟩
  | .local _ .vmem, ⟨1, _⟩ => ⟨S1x128x16384, .f32⟩
  | .local _ .vmem, ⟨2, _⟩ => ⟨S1x1x16384, .i32⟩
  | .local _ .vmem, ⟨3, _⟩ => ⟨S1x1x16384, .i32⟩
  | .local _ .vmem, ⟨4, _⟩ => ⟨S1x128x21, .f32⟩
  | .local _ .vmem, ⟨5, _⟩ => ⟨S1x128x21, .f32⟩
  | .local _ .vmem, ⟨6, _⟩ => ⟨S1x1x21, .f32⟩
  | .local _ .vmem, ⟨7, _⟩ => ⟨S1x1x21, .f32⟩
  | .local _ .vmem, ⟨8, _⟩ => ⟨S1x1x16384, .i32⟩
  | .local _ .vmem, ⟨9, _⟩ => ⟨S1x1x16384, .i32⟩
  | .local _ .vmem, ⟨10, _⟩ => ⟨S1x128x21, .f32⟩
  | .local _ .vmem, ⟨11, _⟩ => ⟨S1x1x21, .f32⟩
  | .local _ .vmem, ⟨12, _⟩ => ⟨S1x128x16384, .f32⟩
  | .local _ .vmem, ⟨13, _⟩ => ⟨S1x128x16384, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1x16384 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128x21 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1x21 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x128x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x128x256x256_S8x128x65536 : S8x128x256x256.ShapeCasts S8x128x65536
  shapeCasts_S8x1x256x256_S8x1x65536 : S8x1x256x256.ShapeCasts S8x1x65536
  inb_S1x128x21_S1x128x21_0_0_0 : ∀ a, (![0, 0, 0] : Fin 3 → Nat) a + S1x128x21.size a ≤ S1x128x21.size a
  h_S1x128x21 : 0 < S1x128x21.numel
  shapeCasts_S1x128x21_S128x21 : S1x128x21.ShapeCasts S128x21
  shapeCasts_S128x21_S1x128x21 : S128x21.ShapeCasts S1x128x21
  inb_S1x1x21_S1x1x21_0_0_0 : ∀ a, (![0, 0, 0] : Fin 3 → Nat) a + S1x1x21.size a ≤ S1x1x21.size a
  h_S1x1x21 : 0 < S1x1x21.numel
  shapeCasts_S1x1x21_S1x21 : S1x1x21.ShapeCasts S1x21
  shapeCasts_S1x21_S1x1x21 : S1x21.ShapeCasts S1x1x21
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  iota_S21x16384_d0_w32 : S21x16384.Iotas .tc 32 [0]
  broadcasts_S1x16384_S21x16384 : S1x16384.Broadcasts S21x16384
  natLt_1_32 : 1 < 32
  bitsLt_bf16_f32 : FTy.bits .bf16 < FTy.bits .f32
  concatenates_S128x16384_S1x16384_S129x16384_d0 : Shape.Concatenates [S128x16384, S1x16384] S129x16384 0
  slices_S129x21_o0_0_S128x21 : S129x21.Slices ![0, 0] S128x21
  slices_S129x21_o128_0_S1x21 : S129x21.Slices ![128, 0] S1x21
  broadcasts_S1x21_S128x21 : S1x21.Broadcasts S128x21
  concatenates_S128x21_S128x21_S128x42_d1 : Shape.Concatenates [S128x21, S128x21] S128x42 1
  concatenates_S21x16384_S21x16384_S42x16384_d0 : Shape.Concatenates [S21x16384, S21x16384] S42x16384 0
  shapeCasts_S128x16384_S1x128x16384 : S128x16384.ShapeCasts S1x128x16384
  shapeCasts_S8x128x65536_S8x128x256x256 : S8x128x65536.ShapeCasts S8x128x256x256
  dot_S129x16384_S21x16384_S129x21_1_1_0_0_n_n_wf : DotDims.WF S129x16384 S21x16384 S129x21 [1] [1] [0] [0] [] []
  dot_S128x16384_S21x16384_S128x21_1_1_0_0_n_n_wf : DotDims.WF S128x16384 S21x16384 S128x21 [1] [1] [0] [0] [] []
  dot_S128x42_S42x16384_S128x16384_1_0_0_1_n_n_wf : DotDims.WF S128x42 S42x16384 S128x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S8x128x65536.size a
  hwx0_0 : ∀ i : grid0.Coords, EltTy.bits .f32 = 32 ∨ (Rect.block (s := S8x128x65536) S1x128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S8x1x65536.size a
  hwx0_1 : ∀ i : grid0.Coords, EltTy.bits .i32 = 32 ∨ (Rect.block (s := S8x1x65536) S1x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x21.size a ≤ S8x128x21.size a
  hwx0_2 : ∀ i : grid0.Coords, EltTy.bits .f32 = 32 ∨ (Rect.block (s := S8x128x21) S1x128x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x21.size a ≤ S8x1x21.size a
  hwx0_3 : ∀ i : grid0.Coords, EltTy.bits .f32 = 32 ∨ (Rect.block (s := S8x1x21) S1x1x21.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x16384.size a ≤ S8x1x65536.size a
  hwx1_0 : ∀ i : grid1.Coords, EltTy.bits .i32 = 32 ∨ (Rect.block (s := S8x1x65536) S1x1x16384.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128x21.size a ≤ S8x128x21.size a
  hwx1_1 : ∀ i : grid1.Coords, EltTy.bits .f32 = 32 ∨ (Rect.block (s := S8x128x21) S1x128x21.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x21.size a ≤ S8x1x21.size a
  hwx1_2 : ∀ i : grid1.Coords, EltTy.bits .f32 = 32 ∨ (Rect.block (s := S8x1x21) S1x1x21.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x16384.size a ≤ S8x128x65536.size a
  hwx1_3 : ∀ i : grid1.Coords, EltTy.bits .f32 = 32 ∨ (Rect.block (s := S8x128x65536) S1x128x16384.size (cc1_transform_3 i) (hinb1_3 i)).WholeWords (EltTy.packing .f32)

variable [Facts₀]

def dot_S129x16384_S21x16384_S129x21_1_1_0_0_n_n : DotDims S129x16384 S21x16384 S129x21 where
  lhsContracting := [1]
  rhsContracting := [1]
  lhsNonContracting := [0]
  rhsNonContracting := [0]
  lhsBatch := []
  rhsBatch := []
  wf := dot_S129x16384_S21x16384_S129x21_1_1_0_0_n_n_wf
def dot_S128x16384_S21x16384_S128x21_1_1_0_0_n_n : DotDims S128x16384 S21x16384 S128x21 where
  lhsContracting := [1]
  rhsContracting := [1]
  lhsNonContracting := [0]
  rhsNonContracting := [0]
  lhsBatch := []
  rhsBatch := []
  wf := dot_S128x16384_S21x16384_S128x21_1_1_0_0_n_n_wf
def dot_S128x42_S42x16384_S128x16384_1_0_0_1_n_n : DotDims S128x42 S42x16384 S128x16384 where
  lhsContracting := [1]
  rhsContracting := [0]
  lhsNonContracting := [0]
  rhsNonContracting := [1]
  lhsBatch := []
  rhsBatch := []
  wf := dot_S128x42_S42x16384_S128x16384_1_0_0_1_n_n_wf

abbrev win0_0 : Pipeline.Window sig grid0 :=
  Pipeline.Window.ofSpec (Memref.whole main_v0) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128x21.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x21.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x1x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1x128x21.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x1x21.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128x16384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x128x256x256 : Shape := ⟨4, ![8, 128, 256, 256]⟩
abbrev S8x1x256x256 : Shape := ⟨4, ![8, 1, 256, 256]⟩
abbrev S8x65536 : Shape := ⟨2, ![8, 65536]⟩
abbrev S8 : Shape := ⟨1, ![8]⟩
abbrev S8x1 : Shape := ⟨2, ![8, 1]⟩
abbrev S_ : Shape := ⟨0, ![]⟩
abbrev S524288 : Shape := ⟨1, ![524288]⟩
abbrev S8x256x256x128 : Shape := ⟨4, ![8, 256, 256, 128]⟩
abbrev S524288x128 : Shape := ⟨2, ![524288, 128]⟩
abbrev S168x128 : Shape := ⟨2, ![168, 128]⟩
abbrev S524288x1 : Shape := ⟨2, ![524288, 1]⟩
abbrev S168 : Shape := ⟨1, ![168]⟩
abbrev S168x1 : Shape := ⟨2, ![168, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S8x1x256x256, .i32⟩
  | .hbm, ⟨2, _⟩ => ⟨S8x65536, .i32⟩
  | .hbm, ⟨3, _⟩ => ⟨S8, .i32⟩
  | .hbm, ⟨4, _⟩ => ⟨S8x1, .i32⟩
  | .hbm, ⟨5, _⟩ => ⟨S_, .i32⟩
  | .hbm, ⟨6, _⟩ => ⟨S8x1, .i32⟩
  | .hbm, ⟨7, _⟩ => ⟨S8x1, .i32⟩
  | .hbm, ⟨8, _⟩ => ⟨S8x65536, .i32⟩
  | .hbm, ⟨9, _⟩ => ⟨S8x65536, .i32⟩
  | .hbm, ⟨10, _⟩ => ⟨S524288, .i32⟩
  | .hbm, ⟨11, _⟩ => ⟨S8x256x256x128, .f32⟩
  | .hbm, ⟨12, _⟩ => ⟨S524288x128, .f32⟩
  | .hbm, ⟨13, _⟩ => ⟨S_, .f32⟩
  | .hbm, ⟨14, _⟩ => ⟨S168x128, .f32⟩
  | .hbm, ⟨15, _⟩ => ⟨S524288x1, .i32⟩
  | .hbm, ⟨16, _⟩ => ⟨S168x128, .f32⟩
  | .hbm, ⟨17, _⟩ => ⟨S_, .f32⟩
  | .hbm, ⟨18, _⟩ => ⟨S524288, .f32⟩
  | .hbm, ⟨19, _⟩ => ⟨S_, .f32⟩
  | .hbm, ⟨20, _⟩ => ⟨S168, .f32⟩
  | .hbm, ⟨21, _⟩ => ⟨S524288x1, .i32⟩
  | .hbm, ⟨22, _⟩ => ⟨S168, .f32⟩
  | .hbm, ⟨23, _⟩ => ⟨S168x1, .f32⟩
  | .hbm, ⟨24, _⟩ => ⟨S_, .f32⟩
  | .hbm, ⟨25, _⟩ => ⟨S168x1, .f32⟩
  | .hbm, ⟨26, _⟩ => ⟨S168x1, .f32⟩
  | .hbm, ⟨27, _⟩ => ⟨S168x128, .f32⟩
  | .hbm, ⟨28, _⟩ => ⟨S168x128, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x128, .f32⟩
  | .hbm, ⟨38, _⟩ => ⟨S8x256x256x128, .f32⟩
  | .hbm, ⟨39, _⟩ => ⟨S8x128x256x256, .f32⟩
  | .hbm, ⟨40, _⟩ => ⟨S_, .i32⟩
  | .hbm, ⟨41, _⟩ => ⟨S8x1x256x256, .i32⟩
  | .hbm, ⟨42, _⟩ => ⟨S8x1x256x256, .i1⟩
  | .hbm, ⟨43, _⟩ => ⟨S_, .i32⟩
  | .hbm, ⟨44, _⟩ => ⟨S8x1x256x256, .i32⟩
  | .hbm, ⟨45, _⟩ => ⟨S8x1x256x256, .i1⟩
  | .hbm, ⟨46, _⟩ => ⟨S8x1x256x256, .i1⟩
  | .hbm, ⟨47, _⟩ => ⟨S8x128x256x256, .i1⟩
  | .hbm, ⟨48, _⟩ => ⟨S8x128x256x256, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_c_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  shapeCasts_S8x1x256x256_S8x65536 : S8x1x256x256.ShapeCasts S8x65536
  bcast_S8_S8x1_0 : S8.BroadcastsInDim S8x1 (![0] : Fin 1 → Fin S8x1.rank)
  bcast_S_S8x1 : S_.BroadcastsInDim S8x1 (![] : Fin 0 → Fin S8x1.rank)
  bcast_S8x1_S8x65536_0_1 : S8x1.BroadcastsInDim S8x65536 (![0, 1] : Fin 2 → Fin S8x65536.rank)
  shapeCasts_S8x65536_S524288 : S8x65536.ShapeCasts S524288
  transposes_S8x128x256x256_S8x256x256x128_0_2_3_1 : S8x128x256x256.Transposes [0, 2, 3, 1] S8x256x256x128
  shapeCasts_S8x256x256x128_S524288x128 : S8x256x256x128.ShapeCasts S524288x128
  bcast_S_S168x128 : S_.BroadcastsInDim S168x128 (![] : Fin 0 → Fin S168x128.rank)
  bcast_S524288_S524288x1_0 : S524288.BroadcastsInDim S524288x1 (![0] : Fin 1 → Fin S524288x1.rank)
  bcast_S_S524288 : S_.BroadcastsInDim S524288 (![] : Fin 0 → Fin S524288.rank)
  bcast_S_S168 : S_.BroadcastsInDim S168 (![] : Fin 0 → Fin S168.rank)
  bcast_S168_S168x1_0 : S168.BroadcastsInDim S168x1 (![0] : Fin 1 → Fin S168x1.rank)
  bcast_S_S168x1 : S_.BroadcastsInDim S168x1 (![] : Fin 0 → Fin S168x1.rank)
  bcast_S168x1_S168x128_0_1 : S168x1.BroadcastsInDim S168x128 (![0, 1] : Fin 2 → Fin S168x128.rank)
  shapeCasts_S524288x128_S8x256x256x128 : S524288x128.ShapeCasts S8x256x256x128
  transposes_S8x256x256x128_S8x128x256x256_0_3_1_2 : S8x256x256x128.Transposes [0, 3, 1, 2] S8x128x256x256
  bcast_S_S8x1x256x256 : S_.BroadcastsInDim S8x1x256x256 (![] : Fin 0 → Fin S8x1x256x256.rank)
  bcast_S8x1x256x256_S8x128x256x256_0_1_2_3 : S8x1x256x256.BroadcastsInDim S8x128x256x256 (![0, 1, 2, 3] : Fin 4 → Fin S8x128x256x256.rank)
  scatter_S168x128_S524288x1_S524288x128_1_0_0_1_wf : ScatterDims.WF S168x128 S524288x1 S524288x128 [1] [0] [0] 1
  scatter_S168_S524288x1_S524288_n_0_0_1_wf : ScatterDims.WF S168 S524288x1 S524288 [] [0] [0] 1
  gather_S168x128_S524288x1_S524288x128_1_0_n_n_0_1_1128_wf : GatherDims.WF S168x128 S524288x1 S524288x128 [1] [0] [] [0] [] 1 ![1, 128]

variable [Facts₀]

def scatter_S168x128_S524288x1_S524288x128_1_0_0_1 : ScatterDims S168x128 S524288x1 S524288x128 where
  updateWindowDims := [1]
  insertedWindowDims := [0]
  scatterDimsToOperandDims := [0]
  indexVectorDim := 1
  wf := scatter_S168x128_S524288x1_S524288x128_1_0_0_1_wf
def scatter_S168_S524288x1_S524288_n_0_0_1 : ScatterDims S168 S524288x1 S524288 where
  updateWindowDims := []
  insertedWindowDims := [0]
  scatterDimsToOperandDims := [0]
  indexVectorDim := 1
  wf := scatter_S168_S524288x1_S524288_n_0_0_1_wf
def gather_S168x128_S524288x1_S524288x128_1_0_n_n_0_1_1128 : GatherDims S168x128 S524288x1 S524288x128 where
  offsetDims := [1]
  collapsedSliceDims := [0]
  operandBatchingDims := []
  startIndicesBatchingDims := []
  startIndexMap := [0]
  indexVectorDim := 1
  sliceSizes := ![1, 128]
  wf := gather_S168x128_S524288x1_S524288x128_1_0_n_n_0_1_1128_wf

class Facts : Prop extends Facts₀ where

variable [Facts]
-- ==== Proof.Spec.lean ====
/-
  The mathematics both programs compute, over the extended reals.

  A batch holds 65536 pixels, addressed flat (row-major over the 256 × 256 image); each pixel carries a label word,
  and each of 128 channels a value. For a class `k` among 21: `segSum` adds a channel's values over the pixels
  labelled `k`, written as the sum over ALL pixels of value × one-hot entry; `segCnt` counts those pixels the same
  way; `segMean` is their quotient with a small positive constant added to the count. The result replaces every pixel
  by the mean of its own class, again as a one-hot sum over the classes (`pick`). Where every value is a real number
  and the label is one of the 21 classes, `pick` is the class's mean itself.
-/
import Idealize.ShloMosaic.PureOps.Ideal
import Idealize.ShloMosaic.Lib.ValueIdx

noncomputable section

namespace Cert.SegMean

open Idealize.ShloMosaic Idealize.ShloMosaic.ValueIdx

/-- The image, its labels, and the same two with the image's rows and columns flattened. -/
abbrev SImg : Shape := ⟨4, ![8, 128, 256, 256]⟩
abbrev SLab : Shape := ⟨4, ![8, 1, 256, 256]⟩
abbrev SImgF : Shape := ⟨3, ![8, 128, 65536]⟩
abbrev SLabF : Shape := ⟨3, ![8, 1, 65536]⟩
abbrev SSum : Shape := ⟨3, ![8, 128, 21]⟩
abbrev SCnt : Shape := ⟨3, ![8, 1, 21]⟩

/-- An extended real that is a real number (neither infinity). -/
def IsReal (x : EReal) : Prop := ∃ r : ℝ, x = (r : EReal)

/-- The one-hot entry of a label word at a class: 1 when the word is the class's number, else 0. -/
def hot (l : BitVec 32) (k : Fin 21) : EReal := if l = BitVec.ofNat 32 k.val then 1 else 0

/-- The small constant added to every count (the f32 nearest 1e-8), as the extended real its pattern denotes. -/
abbrev eps : EReal := Ideal.ofBits .f32 0x322BCC77#32

/-- A channel's sum over the pixels of class `k`: value × one-hot entry, over all pixels. -/
def segSum (x : Fin 65536 → EReal) (l : Fin 65536 → BitVec 32) (k : Fin 21) : EReal := ∑ p, x p * hot (l p) k

/-- The number of pixels of class `k`, as the sum of the one-hot entries. -/
def segCnt (l : Fin 65536 → BitVec 32) (k : Fin 21) : EReal := ∑ p, hot (l p) k

/-- The class mean: the sum over the count plus the small constant. -/
def segMean (x : Fin 65536 → EReal) (l : Fin 65536 → BitVec 32) (k : Fin 21) : EReal :=
  Ideal.div (segSum x l k) (segCnt l k + eps)

/-- The mean of a pixel's own class, selected by the one-hot sum over the classes. -/
def pick (mean : Fin 21 → EReal) (l : BitVec 32) : EReal := ∑ k, mean k * hot l k

/-- Channel `c` of batch `b` of a flattened image, and batch `b`'s labels. -/
def row (X : SImgF.Idx → EReal) (b : Fin 8) (c : Fin 128) : Fin 65536 → EReal := fun p => X (ix3 b c p)
def labs (L : SLabF.Idx → BitVec 32) (b : Fin 8) : Fin 65536 → BitVec 32 := fun p => L (ix3 b 0 p)

/-- The three arrays of the computation over a flattened image and its labels. -/
def sumsArr (X : SImgF.Idx → EReal) (L : SLabF.Idx → BitVec 32) : SSum.Idx → EReal :=
  fun i => segSum (row X (i 0) (i 1)) (labs L (i 0)) (i 2)
def cntArr (L : SLabF.Idx → BitVec 32) : SCnt.Idx → EReal :=
  fun i => segCnt (labs L (i 0)) (i 2)
def outArr (X : SImgF.Idx → EReal) (L : SLabF.Idx → BitVec 32) : SImgF.Idx → EReal :=
  fun i => pick (segMean (row X (i 0) (i 1)) (labs L (i 0))) (L (ix3 (i 0) 0 (i 2)))

/-- Row-major flattening of the image's rows and columns: flat pixel `p` is row `p / 256`, column `p % 256`. -/
def pixRow (p : Fin 65536) : Fin 256 := ⟨p.val / 256, by have := p.isLt; omega⟩
def pixCol (p : Fin 65536) : Fin 256 := ⟨p.val % 256, Nat.mod_lt _ (by decide)⟩
def pixFlat (h w : Fin 256) : Fin 65536 := ⟨h.val * 256 + w.val, by have := h.isLt; have := w.isLt; omega⟩
def flatImg (img : SImg.Idx → EReal) : SImgF.Idx → EReal := fun i => img (ix4 (i 0) (i 1) (pixRow (i 2)) (pixCol (i 2)))
def flatLab (gt : SLab.Idx → BitVec 32) : SLabF.Idx → BitVec 32 := fun i => gt (ix4 (i 0) 0 (pixRow (i 2)) (pixCol (i 2)))

/-- THE RESULT both programs end with: every pixel of every channel at the mean of its class within its batch. -/
def result (img : SImg.Idx → EReal) (gt : SLab.Idx → BitVec 32) : SImg.Idx → EReal :=
  fun i => outArr (flatImg img) (flatLab gt) (ix3 (i 0) (i 1) (pixFlat (i 2) (i 3)))

theorem pixRow_flat (h w : Fin 256) : pixRow (pixFlat h w) = h := by
  apply Fin.ext; show (h.val * 256 + w.val) / 256 = h.val; have := w.isLt; omega
theorem pixCol_flat (h w : Fin 256) : pixCol (pixFlat h w) = w := by
  apply Fin.ext; show (h.val * 256 + w.val) % 256 = w.val; have := w.isLt; omega
theorem pixFlat_row_col (p : Fin 65536) : pixFlat (pixRow p) (pixCol p) = p := by
  apply Fin.ext; show p.val / 256 * 256 + p.val % 256 = p.val; omega

/-! ## The one-hot entry -/

theorem hot_self (l : BitVec 32) (k : Fin 21) (h : l = BitVec.ofNat 32 k.val) : hot l k = 1 := if_pos h
theorem hot_ne (l : BitVec 32) (k : Fin 21) (h : l ≠ BitVec.ofNat 32 k.val) : hot l k = 0 := if_neg h
theorem hot_cases (l : BitVec 32) (k : Fin 21) : hot l k = 0 ∨ hot l k = 1 := by
  unfold hot; split <;> simp

/-- A label below 21 is the number of exactly one class. -/
theorem ofNat_eq_iff (l : BitVec 32) (hl : l.toNat < 21) (k : Fin 21) : l = BitVec.ofNat 32 k.val ↔ k = ⟨l.toNat, hl⟩ := by
  -- a class number is below 2^32, so the word built from it has that number as its value
  have hk : (BitVec.ofNat 32 k.val).toNat = k.val := by
    rw [BitVec.toNat_ofNat]; exact Nat.mod_eq_of_lt (by have := k.isLt; omega)
  constructor
  · intro h
    apply Fin.ext
    show k.val = l.toNat
    rw [h, hk]
  · intro h
    apply BitVec.eq_of_toNat_eq
    rw [hk, h]

/-! ## Real numbers among the extended reals -/

theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub_self {x : EReal} (hx : IsReal x) : x - x = 0 := by
  obtain ⟨a, rfl⟩ := hx; rw [← EReal.coe_sub]; simp
theorem isReal_hot (l : BitVec 32) (k : Fin 21) : IsReal (hot l k) := by
  rcases hot_cases l k with h | h <;> rw [h]; exacts [isReal_zero, isReal_one]
theorem isReal_sum {ι : Type} (s : Finset ι) (f : ι → EReal) (h : ∀ i ∈ s, IsReal (f i)) : IsReal (∑ i ∈ s, f i) := by
  -- by induction on the index set: the empty sum is 0, and a real plus a real is real
  classical
  revert h
  refine Finset.induction_on s ?_ ?_
  · intro _
    rw [Finset.sum_empty]; exact isReal_zero
  · intro a t ha ih h
    rw [Finset.sum_insert ha]
    exact (h a (Finset.mem_insert_self a t)).add (ih (fun i hi => h i (Finset.mem_insert_of_mem hi)))

/-- The small constant is a positive real. -/
theorem eps_pos : ∃ e : ℝ, 0 < e ∧ eps = (e : EReal) := by
  -- sign 0, exponent field 100, fraction field 2870391: the normal number (2^23 + 2870391) · 2^(100 - 127 - 23)
  refine ⟨(11258999 : ℝ) * (2 : ℝ) ^ (-50 : ℤ), by positivity, ?_⟩
  simp [Ideal.ofBits, Ideal.ieee, -EReal.coe_mul]

/-- The count is a nonnegative real. -/
theorem segCnt_nonneg (l : Fin 65536 → BitVec 32) (k : Fin 21) : ∃ r : ℝ, 0 ≤ r ∧ segCnt l k = (r : EReal) := by
  -- by induction on the set of pixels summed over: each entry adds 0 or 1 to a nonnegative real
  have key : ∀ s : Finset (Fin 65536), ∃ r : ℝ, 0 ≤ r ∧ ∑ p ∈ s, hot (l p) k = (r : EReal) := by
    intro s
    refine Finset.induction_on s ?_ ?_
    · exact ⟨0, le_refl _, by rw [Finset.sum_empty]; rfl⟩
    · intro a t ha ih
      obtain ⟨r, hr, hs⟩ := ih
      rw [Finset.sum_insert ha, hs]
      rcases hot_cases (l a) k with h | h <;> rw [h]
      · exact ⟨r, hr, zero_add _⟩
      · exact ⟨1 + r, by linarith, (EReal.coe_add 1 r).symm⟩
  exact key Finset.univ

theorem isReal_segSum (x : Fin 65536 → EReal) (l : Fin 65536 → BitVec 32) (k : Fin 21) (hx : ∀ p, IsReal (x p)) :
    IsReal (segSum x l k) := by
  -- every term is a real value times a one-hot entry
  exact isReal_sum _ _ (fun p _ => (hx p).mul (isReal_hot (l p) k))

/-- The mean of real values is real: the divisor is a positive real. -/
theorem isReal_segMean (x : Fin 65536 → EReal) (l : Fin 65536 → BitVec 32) (k : Fin 21) (hx : ∀ p, IsReal (x p)) :
    IsReal (segMean x l k) := by
  -- the divisor is a nonnegative real plus a positive real, so nonzero; a real times a real reciprocal is real
  obtain ⟨r, hr, hc⟩ := segCnt_nonneg l k
  obtain ⟨e, he, hE⟩ := eps_pos
  obtain ⟨s, hs⟩ := isReal_segSum x l k hx
  have hne : r + e ≠ 0 := ne_of_gt (by linarith)
  unfold segMean
  rw [hs, hc, hE, ← EReal.coe_add, Ideal.div_coe hne]
  exact ⟨s * (1 / (r + e)), (EReal.coe_mul _ _).symm⟩

/-- The one-hot sum over the classes picks the label's own class, when the label is a class. -/
theorem pick_eq (mean : Fin 21 → EReal) (l : BitVec 32) (hl : l.toNat < 21) : pick mean l = mean ⟨l.toNat, hl⟩ := by
  -- every class other than the label's own has entry 0; the label's own has entry 1
  unfold pick
  rw [Finset.sum_eq_single (⟨l.toNat, hl⟩ : Fin 21)]
  · rw [hot_self l _ ((ofNat_eq_iff l hl _).mpr rfl), mul_one]
  · intro k _ hk
    rw [hot_ne l k (fun h => hk ((ofNat_eq_iff l hl k).mp h)), mul_zero]
  · intro h
    exact absurd (Finset.mem_univ _) h

end Cert.SegMean

end
-- ==== Proof.SumsPayload.lean ====
/-
  What one grid point of the summing kernel adds, read at an index: the point's block of the image against the one-hot
  matrix of the point's labels.
-/
import proofs.«419666_j38439957300009_3_alg».proof.Proof.Gen.KernelIdeal.Skeleton
import proofs.«419666_j38439957300009_3_alg».proof.Proof.Spec
import Idealize.ShloMosaic.Lib.Pipeline.Value
import Idealize.ShloMosaic.Lib.ValueLayout
import Idealize.ShloMosaic.PureOps.Ideal.Laws

noncomputable section

namespace Cert.KernelIdeal.SumsPayload

open Idealize.ShloMosaic Idealize.ShloMosaic.TcCoe Idealize.ShloMosaic.ValueIdx Idealize.SL.Sem
open Idealize.ShloMosaic.Pipeline (Dat)
open Cert.KernelIdeal Cert.KernelIdeal.Gen Cert.SegMean

/-! ## The 129-row product's operand indices

At output position (row, class) and contraction position (pixel) the left operand is read at (row, pixel) and the
right operand at (class, pixel): the product contracts its operands' second axes. -/

theorem lhs129_0 (j : S129x21.Idx) (kk : dot_S129x16384_S21x16384_S129x21_1_1_0_0_n_n.contr.Idx) :
    (dot_S129x16384_S21x16384_S129x21_1_1_0_0_n_n.lhsIdx j kk 0 : ℕ) = j 0 := by
  simp [DotDims.lhsIdx, dot_S129x16384_S21x16384_S129x21_1_1_0_0_n_n]; rfl
theorem lhs129_1 (j : S129x21.Idx) (kk : dot_S129x16384_S21x16384_S129x21_1_1_0_0_n_n.contr.Idx) :
    (dot_S129x16384_S21x16384_S129x21_1_1_0_0_n_n.lhsIdx j kk 1 : ℕ) = kk ⟨0, by decide⟩ := by
  simp [DotDims.lhsIdx, dot_S129x16384_S21x16384_S129x21_1_1_0_0_n_n]; rfl
theorem rhs129_0 (j : S129x21.Idx) (kk : dot_S129x16384_S21x16384_S129x21_1_1_0_0_n_n.contr.Idx) :
    (dot_S129x16384_S21x16384_S129x21_1_1_0_0_n_n.rhsIdx j kk 0 : ℕ) = j 1 := by
  simp [DotDims.rhsIdx, dot_S129x16384_S21x16384_S129x21_1_1_0_0_n_n]; rfl
theorem rhs129_1 (j : S129x21.Idx) (kk : dot_S129x16384_S21x16384_S129x21_1_1_0_0_n_n.contr.Idx) :
    (dot_S129x16384_S21x16384_S129x21_1_1_0_0_n_n.rhsIdx j kk 1 : ℕ) = kk ⟨0, by decide⟩ := by
  simp [DotDims.rhsIdx, dot_S129x16384_S21x16384_S129x21_1_1_0_0_n_n]; rfl

/-- The left operand's index at output (r, k) and pixel q is (r, q). -/
theorem lhs129_idx (r : Fin 129) (k : Fin 21) (q : Fin 16384) :
    dot_S129x16384_S21x16384_S129x21_1_1_0_0_n_n.lhsIdx (ix2 r k)
      ((contrEquiv1 dot_S129x16384_S21x16384_S129x21_1_1_0_0_n_n 16384 rfl rfl).symm q) = ix2 r q := by
  funext a
  match a with
  | ⟨0, _⟩ => exact Fin.ext (lhs129_0 _ _)
  | ⟨1, _⟩ => exact Fin.ext ((lhs129_1 _ _).trans (contrEquiv1_symm_val _ _ _ _ q))
/-- The right operand's index at output (r, k) and pixel q is (k, q). -/
theorem rhs129_idx (r : Fin 129) (k : Fin 21) (q : Fin 16384) :
    dot_S129x16384_S21x16384_S129x21_1_1_0_0_n_n.rhsIdx (ix2 r k)
      ((contrEquiv1 dot_S129x16384_S21x16384_S129x21_1_1_0_0_n_n 16384 rfl rfl).symm q) = ix2 k q := by
  funext a
  match a with
  | ⟨0, _⟩ => exact Fin.ext (rhs129_0 _ _)
  | ⟨1, _⟩ => exact Fin.ext ((rhs129_1 _ _).trans (contrEquiv1_symm_val _ _ _ _ q))

/-! ## The one-hot matrix and the first product -/

/-- The one-hot matrix at (class, pixel): the class's number along axis 0 is compared with the pixel's label word
    (the labels' one row repeated down the classes); the one-bit answer, widened and converted, is 1 or 0. -/
theorem pay5_apply (l : IVec S1x1x16384 32) (k : Fin 21) (q : Fin 16384) :
    k0_pay5 (F := Ideal) l (ix2 k q) = hot (l (ix3 0 0 q)) k := by
  have h1 : iota .tc S21x16384 32 [0] iota_S21x16384_d0_w32 (ix2 k q) = BitVec.ofNat 32 k.val :=
    iota_single_apply .tc S21x16384 32 0 iota_S21x16384_d0_w32 (ix2 k q)
  have h2 : broadcastTo S21x16384 (shapeCast S1x16384 l shapeCasts_S1x1x16384_S1x16384) broadcasts_S1x16384_S21x16384 (ix2 k q)
      = l (ix3 0 0 q) :=
    (broadcastTo_1b_ab_apply _ _ k q).trans (shapeCast_1ab_ab_apply l _ 0 q)
  unfold k0_pay5
  show FloatOps.sitofp (F := Ideal) .f32 ((IntOp.cmpi .eq (iota .tc S21x16384 32 [0] iota_S21x16384_d0_w32 (ix2 k q))
    (broadcastTo S21x16384 (shapeCast S1x16384 l shapeCasts_S1x1x16384_S1x16384) broadcasts_S1x16384_S21x16384 (ix2 k q))).setWidth 32) = _
  rw [h1, h2]
  unfold hot
  by_cases h : l (ix3 0 0 q) = BitVec.ofNat 32 k.val
  · rw [if_pos h, h]
    simp [IntOp.cmpi]
    show (((1#32 : BitVec 32).toInt : ℝ) : EReal) = 1
    rw [show (1#32 : BitVec 32).toInt = 1 by decide]; simp
  · rw [if_neg h]
    have hne : (BitVec.ofNat 32 k.val == l (ix3 0 0 q)) = false := by
      rw [beq_eq_false_iff_ne]; exact fun e => h e.symm
    simp [IntOp.cmpi, hne]
    show (((0#32 : BitVec 32).toInt : ℝ) : EReal) = 0
    rw [show (0#32 : BitVec 32).toInt = 0 by decide]; simp

/-- The bf16 pattern of the appended row is the number one: 128 · 2⁻⁷. -/
theorem one_bf16 : Ideal.ofBits .bf16 0x3F80#16 = 1 := by
  simp [Ideal.ofBits, Ideal.ieee]
  rw [← EReal.coe_mul]
  norm_num

/-- The first product at a channel's row and a class: the sum over the pixels of value × one-hot entry. -/
theorem pay6_apply_lt (x : FVec Ideal S1x128x16384 .f32) (l : IVec S1x1x16384 32) (c : Fin 128) (k : Fin 21) :
    k0_pay6 (F := Ideal) x l (ix2 (⟨c.val, by have := c.isLt; omega⟩ : Fin 129) k)
      = ∑ q : Fin 16384, x (ix3 0 c q) * hot (l (ix3 0 0 q)) k := by
  unfold k0_pay6
  refine (Ideal.matmul_constant_zero_apply _ none _ _ _).trans ?_
  refine (Equiv.sum_comp (contrEquiv1 dot_S129x16384_S21x16384_S129x21_1_1_0_0_n_n 16384 rfl rfl).symm _).symm.trans ?_
  refine Finset.sum_congr rfl fun q _ => ?_
  rw [lhs129_idx, rhs129_idx, pay5_apply]
  congr 1
  refine (concatenate_pair_apply_left (s₁ := S128x16384) (s₂ := S1x16384) (0 : Fin 2) _ _ _ (ix2 (⟨c.val, by have := c.isLt; omega⟩ : Fin 129) q) rfl (ix2 c q) ?_).trans ?_
  · intro b
    match b with
    | ⟨0, _⟩ => rfl
    | ⟨1, _⟩ => rfl
  · unfold k0_pay4
    exact shapeCast_1ab_ab_apply x _ c q

/-- The first product at the appended row of ones and a class: the sum over the pixels of the one-hot entries. -/
theorem pay6_apply_128 (x : FVec Ideal S1x128x16384 .f32) (l : IVec S1x1x16384 32) (k : Fin 21) :
    k0_pay6 (F := Ideal) x l (ix2 (⟨128, by decide⟩ : Fin 129) k) = ∑ q : Fin 16384, hot (l (ix3 0 0 q)) k := by
  unfold k0_pay6
  refine (Ideal.matmul_constant_zero_apply _ none _ _ _).trans ?_
  refine (Equiv.sum_comp (contrEquiv1 dot_S129x16384_S21x16384_S129x21_1_1_0_0_n_n 16384 rfl rfl).symm _).symm.trans ?_
  refine Finset.sum_congr rfl fun q _ => ?_
  rw [lhs129_idx, rhs129_idx, pay5_apply]
  refine Eq.trans (congrArg (· * hot (l (ix3 0 0 q)) k) ?_) (one_mul _)
  refine (concatenate_pair_apply_right (s₁ := S128x16384) (s₂ := S1x16384) (0 : Fin 2) _ _ _ (ix2 (⟨128, by decide⟩ : Fin 129) q) rfl rfl (ix2 (0 : Fin 1) q) ?_ ?_).trans ?_
  · intro b hb
    match b with
    | ⟨0, _⟩ => exact absurd rfl hb
    | ⟨1, _⟩ => rfl
  · rfl
  · exact one_bf16

/-! ## The second product -/

/-- Every entry of the image block, with its leading unit axis dropped, is a real number. -/
theorem isReal_pay4 (x : FVec Ideal S1x128x16384 .f32) (hx : ∀ i, IsReal (x i)) (j : S128x16384.Idx) :
    IsReal (k0_pay4 (F := Ideal) x j) := by
  obtain ⟨a, b, rfl⟩ : ∃ a b, j = ix2 a b := ⟨j 0, j 1, eq_ix2 j⟩
  unfold k0_pay4
  rw [shapeCast_1ab_ab_apply x _ a b]
  exact hx _

/-- The second product is a sum of zeros: each left factor is a real value minus itself. -/
theorem second_product_zero (x : FVec Ideal S1x128x16384 .f32) (l : IVec S1x1x16384 32) (hx : ∀ i, IsReal (x i))
    (j : S128x21.Idx) :
    matmul dot_S128x16384_S21x16384_S128x21_1_1_0_0_n_n none
        (truncf .bf16 (subf (k0_pay4 (F := Ideal) x) (k0_pay4 x)) bitsLt_bf16_f32) (k0_pay5 l)
        (constant S128x21 .f32 0x00000000#32) j = 0 := by
  refine (Ideal.matmul_constant_zero_apply _ none _ _ _).trans ?_
  refine Finset.sum_eq_zero fun kk _ => ?_
  have hz : truncf .bf16 (subf (k0_pay4 (F := Ideal) x) (k0_pay4 x)) bitsLt_bf16_f32
      (dot_S128x16384_S21x16384_S128x21_1_1_0_0_n_n.lhsIdx j kk) = 0 :=
    IsReal.sub_self (isReal_pay4 x hx _)
  rw [hz, zero_mul]

/-! ## The stored values -/

/-- The store into the sums block at a point: the block's old contents plus, per channel and class, the sum over the
    point's 16384 pixels of value × one-hot entry. (The second product, of the value minus itself, is a sum of zeros
    because every value is a real number.) -/
theorem pay7_apply (x : FVec Ideal S1x128x16384 .f32) (l : IVec S1x1x16384 32) (acc : FVec Ideal S1x128x21 .f32)
    (hx : ∀ i, IsReal (x i)) (c : Fin 128) (k : Fin 21) :
    k0_pay7 (F := Ideal) x l acc (ix3 0 c k)
      = acc (ix3 0 c k) + ∑ q : Fin 16384, x (ix3 0 c q) * hot (l (ix3 0 0 q)) k := by
  unfold k0_pay7
  refine (shapeCast_ab_1ab_apply _ _ 0 c k).trans ?_
  refine (addf_apply _ _ _).trans ?_
  refine congrArg₂ (· + ·) (shapeCast_1ab_ab_apply acc _ c k) ?_
  refine (addf_apply _ _ _).trans ?_
  rw [second_product_zero x l hx, add_zero]
  refine (slice2_axis0_apply 0 _ _ c k (⟨c.val, by have := c.isLt; omega⟩ : Fin 129) (Nat.zero_add _).symm).trans ?_
  exact pay6_apply_lt x l c k

/-- The store into the counts block at a point: the old count plus the number of the point's pixels of the class (the
    row of ones against the one-hot matrix). -/
theorem pay1_apply (x : FVec Ideal S1x128x16384 .f32) (l : IVec S1x1x16384 32) (acc : FVec Ideal S1x1x21 .f32) (k : Fin 21) :
    k0_pay1 (F := Ideal) (k0_pay8 x l acc) (ix3 0 0 k) = acc (ix3 0 0 k) + ∑ q : Fin 16384, hot (l (ix3 0 0 q)) k := by
  unfold k0_pay1
  refine (shapeCast_ab_1ab_apply _ _ 0 0 k).trans ?_
  unfold k0_pay8
  refine (addf_apply _ _ _).trans ?_
  refine congrArg₂ (· + ·) (shapeCast_1ab_ab_apply acc _ 0 k) ?_
  refine (slice2_axis0_apply 128 _ _ (0 : Fin 1) k (⟨128, by decide⟩ : Fin 129) rfl).trans ?_
  exact pay6_apply_128 x l k

/-- The two resets store zeros. -/
theorem pay2_apply (i : S1x128x21.Idx) : k0_pay2 (F := Ideal) i = 0 := by
  obtain ⟨a, b, c, rfl⟩ : ∃ a b c, i = ix3 a b c := ⟨i 0, i 1, i 2, eq_ix3 i⟩
  unfold k0_pay2
  refine (shapeCast_ab_1ab_apply _ _ a b c).trans ?_
  show Ideal.ofBits .f32 0x00000000#32 = 0
  exact Ideal.ofBits_zero_f32
theorem pay3_apply (i : S1x1x21.Idx) : k0_pay3 (F := Ideal) i = 0 := by
  obtain ⟨a, b, c, rfl⟩ : ∃ a b c, i = ix3 a b c := ⟨i 0, i 1, i 2, eq_ix3 i⟩
  unfold k0_pay3
  refine (shapeCast_ab_1ab_apply _ _ a b c).trans ?_
  show Ideal.ofBits .f32 0x00000000#32 = 0
  exact Ideal.ofBits_zero_f32

end Cert.KernelIdeal.SumsPayload

end
-- ==== Proof.SumsValue.lean ====
/-
  The summing kernel's two result arrays: after the four points of a batch the sums block holds, per channel and class,
  the sum over all 65536 pixels of the batch, and the counts block the class sizes.
-/
import proofs.«419666_j38439957300009_3_alg».proof.Proof.Gen.KernelIdeal.Frame
import proofs.«419666_j38439957300009_3_alg».proof.Proof.SumsPayload
import Idealize.ShloMosaic.Lib.Pipeline.Value
import Idealize.ShloMosaic.Lib.Tactic

set_option maxRecDepth 16384

noncomputable section

namespace Cert.KernelIdeal.SumsValue

open Idealize.ShloMosaic Idealize.ShloMosaic.TcCoe Idealize.ShloMosaic.ValueIdx Idealize.SL.Sem
open Idealize.ShloMosaic.Pipeline (Dat)
open Cert.KernelIdeal Cert.KernelIdeal.Gen Cert.SegMean

/-! ## What each case leaves in the two staging buffers -/

section Pieces
variable {F : FTy → Type} [FloatOps F]

theorem hz : (![0, 0, 0] : Fin 3 → Nat) = fun _ => 0 := funext fun a => by fin_cases a <;> rfl

/-- An accumulating point leaves, in the sums buffer holding `xo2`, the one covering store's payload over the point's
    two input blocks and `xo2`. -/
theorem out_B_2 (c : Dev nD) (i : grid0.Coords) (a2 : Memref sig .tc .vmem S1x128x16384 .f32) (h2 : a2.IsWhole) (a3 : Memref sig .tc .vmem S1x1x16384 .i32) (h3 : a3.IsWhole) (a4 : Memref sig .tc .vmem S1x128x21 .f32) (h4 : a4.IsWhole) (a5 : Memref sig .tc .vmem S1x1x21 .f32) (h5 : a5.IsWhole) (hc : ¬cond0_0 i)
    (x : Vec F S1x128x16384 .f32) (l : Vec F S1x1x16384 .i32) (xo2 : Vec F S1x128x21 .f32) (xo3 : Vec F S1x1x21 .f32) :
    out0_B_2 c i a2 h2 a3 h3 a4 h4 a5 h5 hc x l xo2 xo3 = k0_pay7 x l xo2 := by
  unfold out0_B_2
  rw [View.read_writes_eq_canon _ _ _ (cover0_B_2 c i a2 h2 a3 h3 a4 h4 a5 h5 hc x l xo2 xo3)]
  unfold kernelRun0_B
  dsimp only
  sl_unfold_words
  rw [View.canon_unit_zero hz]
  simp only [View.readAt_eq_ld, h2.read_unread, h3.read_unread, h4.read_unread, View.ld_unit_zero (S := S1x128x16384) hz,
    View.ld_unit_zero (S := S1x1x16384) hz, View.ld_unit_zero (S := S1x128x21) hz]

/-- and in the counts buffer holding `xo3` the counts store's payload over the labels' block and `xo3`. -/
theorem out_B_3 (c : Dev nD) (i : grid0.Coords) (a2 : Memref sig .tc .vmem S1x128x16384 .f32) (h2 : a2.IsWhole) (a3 : Memref sig .tc .vmem S1x1x16384 .i32) (h3 : a3.IsWhole) (a4 : Memref sig .tc .vmem S1x128x21 .f32) (h4 : a4.IsWhole) (a5 : Memref sig .tc .vmem S1x1x21 .f32) (h5 : a5.IsWhole) (hc : ¬cond0_0 i)
    (x : Vec F S1x128x16384 .f32) (l : Vec F S1x1x16384 .i32) (xo2 : Vec F S1x128x21 .f32) (xo3 : Vec F S1x1x21 .f32) :
    out0_B_3 c i a2 h2 a3 h3 a4 h4 a5 h5 hc x l xo2 xo3 = k0_pay1 (k0_pay8 x l xo3) := by
  unfold out0_B_3
  rw [View.read_writes_eq_canon _ _ _ (cover0_B_3 c i a2 h2 a3 h3 a4 h4 a5 h5 hc x l xo2 xo3)]
  unfold kernelRun0_B
  dsimp only
  sl_unfold_words
  rw [View.canon_unit_zero hz]
  simp only [View.readAt_eq_ld, h2.read_unread, h3.read_unread, h5.read_unread, View.ld_unit_zero (S := S1x128x16384) hz,
    View.ld_unit_zero (S := S1x1x16384) hz, View.ld_unit_zero (S := S1x1x21) hz]

/-- A resetting point stores the zero block, reads it back, and leaves the same payload over the zero block. -/
theorem out_A_2 (c : Dev nD) (i : grid0.Coords) (a2 : Memref sig .tc .vmem S1x128x16384 .f32) (h2 : a2.IsWhole) (a3 : Memref sig .tc .vmem S1x1x16384 .i32) (h3 : a3.IsWhole) (a4 : Memref sig .tc .vmem S1x128x21 .f32) (h4 : a4.IsWhole) (a5 : Memref sig .tc .vmem S1x1x21 .f32) (h5 : a5.IsWhole) (hc : cond0_0 i)
    (x : Vec F S1x128x16384 .f32) (l : Vec F S1x1x16384 .i32) :
    out0_A_2 c i a2 h2 a3 h3 a4 h4 a5 h5 hc x l = k0_pay7 x l k0_pay2 := by
  unfold out0_A_2
  rw [View.read_writes_eq_canon _ _ _ (cover0_A_2 c i a2 h2 a3 h3 a4 h4 a5 h5 hc x l)]
  unfold kernelRun0_A
  dsimp only
  sl_unfold_words
  rw [View.canon_cons_unit_zero (S := S1x128x21) hz, View.readCov_unit_zero (S := S1x128x21) _ hz]
  simp only [View.readAt_eq_ld, h2.read_unread, h3.read_unread, View.ld_unit_zero (S := S1x128x16384) hz,
    View.ld_unit_zero (S := S1x1x16384) hz]

theorem out_A_3 (c : Dev nD) (i : grid0.Coords) (a2 : Memref sig .tc .vmem S1x128x16384 .f32) (h2 : a2.IsWhole) (a3 : Memref sig .tc .vmem S1x1x16384 .i32) (h3 : a3.IsWhole) (a4 : Memref sig .tc .vmem S1x128x21 .f32) (h4 : a4.IsWhole) (a5 : Memref sig .tc .vmem S1x1x21 .f32) (h5 : a5.IsWhole) (hc : cond0_0 i)
    (x : Vec F S1x128x16384 .f32) (l : Vec F S1x1x16384 .i32) :
    out0_A_3 c i a2 h2 a3 h3 a4 h4 a5 h5 hc x l = k0_pay1 (k0_pay8 x l k0_pay3) := by
  unfold out0_A_3
  rw [View.read_writes_eq_canon _ _ _ (cover0_A_3 c i a2 h2 a3 h3 a4 h4 a5 h5 hc x l)]
  unfold kernelRun0_A
  dsimp only
  sl_unfold_words
  rw [View.canon_cons_unit_zero (S := S1x1x21) hz, View.readCov_unit_zero (S := S1x1x21) _ hz]
  simp only [View.readAt_eq_ld, h2.read_unread, h3.read_unread, View.ld_unit_zero (S := S1x128x16384) hz,
    View.ld_unit_zero (S := S1x1x16384) hz]

end Pieces

variable (V : (c : Dev nD) → (b : Ref sig .tc) → Buf (Elt Ideal) ((c : Thread nD τ).loc b))

/-! ## The two arrays the region reads, and their blocks at a point -/

/-- The flattened image and the flattened labels as the region finds them. -/
abbrev img (c : Dev nD) : SImgF.Idx → EReal := V c main_v0
abbrev lab (c : Dev nD) : SLabF.Idx → BitVec 32 := V c main_v1
/-- Their blocks at point `t`. -/
abbrev xblk (c : Dev nD) (t : Fin cfg0.N) : FVec Ideal S1x128x16384 .f32 := iblk0 V c 0 t
abbrev lblk (c : Dev nD) (t : Fin cfg0.N) : IVec S1x1x16384 32 := iblk0 V c 1 t

/-- The block indices over the grid: point `t` is batch `t / 4`, tile `t % 4`; the inputs' blocks move with both, the
    results' with the batch only. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

theorem hN : cfg0.N = 32 := N_0

/-- Entry (0, ch, q) of the image's block at point `4·b + j` is pixel `16384·j + q` of channel `ch` of batch `b`. -/
theorem xblk_apply (c : Dev nD) (t : Fin cfg0.N) (b : Fin 8) (j : ℕ) (hj : j < 4) (ht : t.val = 4 * b.val + j)
    (ch : Fin 128) (q : Fin 16384) :
    xblk V c t (ix3 0 ch q) = img V c (ix3 b ch ⟨16384 * j + q.val, by have := q.isLt; omega⟩) := by
  obtain ⟨e0, e1, e2, -⟩ := idx_facts t
  show iblk0 V c 0 t (ix3 0 ch q) = V c main_v0 _
  unfold iblk0
  rw [View.read_apply]
  show V c main_v0 _ = V c main_v0 _
  congr 1
  funext a
  apply Fin.ext
  match a with
  | ⟨0, _⟩ => show win0_0.index t (0 : Fin 3) * 1 + 1 * 0 = b.val; omega
  | ⟨1, _⟩ => show win0_0.index t (1 : Fin 3) * 128 + 1 * ch.val = ch.val; omega
  | ⟨2, _⟩ => show win0_0.index t (2 : Fin 3) * 16384 + 1 * q.val = 16384 * j + q.val; omega

/-- Entry (0, 0, q) of the labels' block there is the label of that pixel. -/
theorem lblk_apply (c : Dev nD) (t : Fin cfg0.N) (b : Fin 8) (j : ℕ) (hj : j < 4) (ht : t.val = 4 * b.val + j)
    (q : Fin 16384) :
    lblk V c t (ix3 0 0 q) = lab V c (ix3 b 0 ⟨16384 * j + q.val, by have := q.isLt; omega⟩) := by
  obtain ⟨-, -, -, e0, e1, e2, -⟩ := idx_facts t
  show iblk0 V c 1 t (ix3 0 0 q) = V c main_v1 _
  unfold iblk0
  rw [View.read_apply]
  show V c main_v1 _ = V c main_v1 _
  congr 1
  funext a
  apply Fin.ext
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 16384 + 1 * q.val = 16384 * j + q.val; omega

/-- Every entry of a block of a real-valued image is real. -/
theorem xblk_real (c : Dev nD) (hfin : ∀ i, IsReal (img V c i)) (t : Fin cfg0.N) (i : S1x128x16384.Idx) :
    IsReal (xblk V c t i) := by
  show IsReal (iblk0 V c 0 t i)
  unfold iblk0
  rw [View.read_apply]
  exact hfin _

/-! ## One point's step, read off the accumulation -/

/-- A resetting point (≡ 0 mod 4) leaves the sums payload over the zero block … -/
theorem sums_reset (c : Dev nD) (t : Fin cfg0.N) (h0 : t.val % 4 = 0) :
    (outsAt0 V c t.val t.isLt).1 = k0_pay7 (F := Ideal) (xblk V c t) (lblk V c t) (k0_pay2 (F := Ideal)) := by
  rw [outsAt0_A V c t h0]
  dsimp only
  exact out_A_2 (F := Ideal) c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)

/-- … and the counts payload over the zero row. -/
theorem cnt_reset (c : Dev nD) (t : Fin cfg0.N) (h0 : t.val % 4 = 0) :
    (outsAt0 V c t.val t.isLt).2 = k0_pay1 (F := Ideal) (k0_pay8 (xblk V c t) (lblk V c t) (k0_pay3 (F := Ideal))) := by
  rw [outsAt0_A V c t h0]
  dsimp only
  exact out_A_3 (F := Ideal) c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)

/-- Any other point leaves the sums payload over what the point before left … -/
theorem sums_acc (c : Dev nD) (n : ℕ) (h : n + 1 < cfg0.N) (h0 : ¬(n + 1) % 4 = 0) :
    (outsAt0 V c (n + 1) h).1
      = k0_pay7 (F := Ideal) (xblk V c ⟨n + 1, h⟩) (lblk V c ⟨n + 1, h⟩) (outsAt0 V c n (Nat.lt_of_succ_lt h)).1 := by
  rw [outsAt0_B V c ⟨n + 1, h⟩ h0]
  dsimp only
  exact out_B_2 (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩)
    (fun hc => h0 ((hcond0_0 ⟨n + 1, h⟩).mp hc)) (iblk0 V c 0 ⟨n + 1, h⟩) (iblk0 V c 1 ⟨n + 1, h⟩)
    (outsAt0 V c n (Nat.lt_of_succ_lt h)).1 (outsAt0 V c n (Nat.lt_of_succ_lt h)).2

/-- … and the counts payload likewise. -/
theorem cnt_acc (c : Dev nD) (n : ℕ) (h : n + 1 < cfg0.N) (h0 : ¬(n + 1) % 4 = 0) :
    (outsAt0 V c (n + 1) h).2
      = k0_pay1 (F := Ideal) (k0_pay8 (xblk V c ⟨n + 1, h⟩) (lblk V c ⟨n + 1, h⟩) (outsAt0 V c n (Nat.lt_of_succ_lt h)).2) := by
  rw [outsAt0_B V c ⟨n + 1, h⟩ h0]
  dsimp only
  exact out_B_3 (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩)
    (fun hc => h0 ((hcond0_0 ⟨n + 1, h⟩).mp hc)) (iblk0 V c 0 ⟨n + 1, h⟩) (iblk0 V c 1 ⟨n + 1, h⟩)
    (outsAt0 V c n (Nat.lt_of_succ_lt h)).1 (outsAt0 V c n (Nat.lt_of_succ_lt h)).2

/-! ## Sums over a batch's pixels, tile by tile -/

/-- The sum of `f` over tile `j` of the four tiles of 16384 pixels (nothing beyond the fourth). -/
def tileSum (f : Fin 65536 → EReal) (j : ℕ) : EReal :=
  if h : j < 4 then ∑ q : Fin 16384, f ⟨16384 * j + q.val, by have := q.isLt; omega⟩ else 0

/-- A pixel is a tile and a position in it. -/
def pixEquiv : Fin 4 × Fin 16384 ≃ Fin 65536 where
  toFun p := ⟨16384 * p.1.val + p.2.val, by have := p.1.isLt; have := p.2.isLt; omega⟩
  invFun p := (⟨p.val / 16384, by have := p.isLt; omega⟩, ⟨p.val % 16384, Nat.mod_lt _ (by decide)⟩)
  left_inv := by
    rintro ⟨j, q⟩
    have := j.isLt; have := q.isLt
    apply Prod.ext
    · apply Fin.ext; show (16384 * j.val + q.val) / 16384 = j.val; omega
    · apply Fin.ext; show (16384 * j.val + q.val) % 16384 = q.val; omega
  right_inv := by
    intro p
    apply Fin.ext; show 16384 * (p.val / 16384) + p.val % 16384 = p.val; omega

/-- The four tiles' sums are the sum over all 65536 pixels. -/
theorem tiles_sum (f : Fin 65536 → EReal) : ∑ j ∈ Finset.range 4, tileSum f j = ∑ p, f p := by
  rw [← Equiv.sum_comp pixEquiv f, Fintype.sum_prod_type, Fin.sum_univ_four, Finset.sum_range_succ, Finset.sum_range_succ,
    Finset.sum_range_succ, Finset.sum_range_one]
  rfl

/-- The sums term of one point: over the point's 16384 pixels, value × one-hot entry, is the tile's sum. -/
theorem sums_tile (c : Dev nD) (t : Fin cfg0.N) (b : Fin 8) (j : ℕ) (hj : j < 4) (ht : t.val = 4 * b.val + j)
    (ch : Fin 128) (k : Fin 21) :
    ∑ q : Fin 16384, xblk V c t (ix3 0 ch q) * hot (lblk V c t (ix3 0 0 q)) k
      = tileSum (fun p => row (img V c) b ch p * hot (labs (lab V c) b p) k) j := by
  unfold tileSum
  rw [dif_pos hj]
  refine Finset.sum_congr rfl fun q _ => ?_
  exact congrArg₂ (fun (u : EReal) (v : BitVec 32) => u * hot v k) (xblk_apply V c t b j hj ht ch q) (lblk_apply V c t b j hj ht q)

/-- The counts term of one point. -/
theorem cnt_tile (c : Dev nD) (t : Fin cfg0.N) (b : Fin 8) (j : ℕ) (hj : j < 4) (ht : t.val = 4 * b.val + j) (k : Fin 21) :
    ∑ q : Fin 16384, hot (lblk V c t (ix3 0 0 q)) k = tileSum (fun p => hot (labs (lab V c) b p) k) j := by
  unfold tileSum
  rw [dif_pos hj]
  refine Finset.sum_congr rfl fun q _ => ?_
  exact congrArg (fun v : BitVec 32 => hot v k) (lblk_apply V c t b j hj ht q)

/-! ## The accumulation's invariant -/

/-- After point `n = 4·b + j` the sums buffer holds, per channel and class, the sums of batch `b`'s tiles 0 … j. -/
theorem sums_inv (c : Dev nD) (hfin : ∀ i, IsReal (img V c i)) (ch : Fin 128) (k : Fin 21) :
    ∀ (n : ℕ) (h : n < cfg0.N) (b : Fin 8) (j : ℕ) (hj : j < 4) (hn : n = 4 * b.val + j),
      (outsAt0 V c n h).1 (ix3 0 ch k)
        = ∑ j' ∈ Finset.range (j + 1), tileSum (fun p => row (img V c) b ch p * hot (labs (lab V c) b p) k) j'
  | 0, h, b, j, hj, hn => by
    obtain rfl : j = 0 := by omega
    refine (congrFun (sums_reset V c ⟨0, h⟩ rfl) (ix3 0 ch k)).trans ?_
    refine (SumsPayload.pay7_apply (xblk V c ⟨0, h⟩) (lblk V c ⟨0, h⟩) (k0_pay2 (F := Ideal)) (xblk_real V c hfin ⟨0, h⟩) ch k).trans ?_
    rw [SumsPayload.pay2_apply, zero_add, Finset.sum_range_one]
    exact sums_tile V c ⟨0, h⟩ b 0 hj hn ch k
  | n + 1, h, b, j, hj, hn => by
    by_cases h0 : (n + 1) % 4 = 0
    · obtain rfl : j = 0 := by omega
      refine (congrFun (sums_reset V c ⟨n + 1, h⟩ h0) (ix3 0 ch k)).trans ?_
      refine (SumsPayload.pay7_apply (xblk V c ⟨n + 1, h⟩) (lblk V c ⟨n + 1, h⟩) (k0_pay2 (F := Ideal)) (xblk_real V c hfin ⟨n + 1, h⟩) ch k).trans ?_
      rw [SumsPayload.pay2_apply, zero_add, Finset.sum_range_one]
      exact sums_tile V c ⟨n + 1, h⟩ b 0 hj hn ch k
    · obtain ⟨j', rfl⟩ : ∃ j', j = j' + 1 := ⟨j - 1, by omega⟩
      refine (congrFun (sums_acc V c n h h0) (ix3 0 ch k)).trans ?_
      refine (SumsPayload.pay7_apply (xblk V c ⟨n + 1, h⟩) (lblk V c ⟨n + 1, h⟩) (outsAt0 V c n (Nat.lt_of_succ_lt h)).1
        (xblk_real V c hfin ⟨n + 1, h⟩) ch k).trans ?_
      rw [Finset.sum_range_succ _ (j' + 1)]
      exact congrArg₂ (fun u v : EReal => u + v) (sums_inv c hfin ch k n (Nat.lt_of_succ_lt h) b j' (by omega) (by omega))
        (sums_tile V c ⟨n + 1, h⟩ b (j' + 1) hj hn ch k)

/-- After point `n = 4·b + j` the counts buffer holds, per class, the class sizes within batch `b`'s tiles 0 … j. -/
theorem cnt_inv (c : Dev nD) (k : Fin 21) :
    ∀ (n : ℕ) (h : n < cfg0.N) (b : Fin 8) (j : ℕ) (hj : j < 4) (hn : n = 4 * b.val + j),
      (outsAt0 V c n h).2 (ix3 0 0 k) = ∑ j' ∈ Finset.range (j + 1), tileSum (fun p => hot (labs (lab V c) b p) k) j'
  | 0, h, b, j, hj, hn => by
    obtain rfl : j = 0 := by omega
    refine (congrFun (cnt_reset V c ⟨0, h⟩ rfl) (ix3 0 0 k)).trans ?_
    refine (SumsPayload.pay1_apply (xblk V c ⟨0, h⟩) (lblk V c ⟨0, h⟩) (k0_pay3 (F := Ideal)) k).trans ?_
    rw [SumsPayload.pay3_apply, zero_add, Finset.sum_range_one]
    exact cnt_tile V c ⟨0, h⟩ b 0 hj hn k
  | n + 1, h, b, j, hj, hn => by
    by_cases h0 : (n + 1) % 4 = 0
    · obtain rfl : j = 0 := by omega
      refine (congrFun (cnt_reset V c ⟨n + 1, h⟩ h0) (ix3 0 0 k)).trans ?_
      refine (SumsPayload.pay1_apply (xblk V c ⟨n + 1, h⟩) (lblk V c ⟨n + 1, h⟩) (k0_pay3 (F := Ideal)) k).trans ?_
      rw [SumsPayload.pay3_apply, zero_add, Finset.sum_range_one]
      exact cnt_tile V c ⟨n + 1, h⟩ b 0 hj hn k
    · obtain ⟨j', rfl⟩ : ∃ j', j = j' + 1 := ⟨j - 1, by omega⟩
      refine (congrFun (cnt_acc V c n h h0) (ix3 0 0 k)).trans ?_
      refine (SumsPayload.pay1_apply (xblk V c ⟨n + 1, h⟩) (lblk V c ⟨n + 1, h⟩) (outsAt0 V c n (Nat.lt_of_succ_lt h)).2 k).trans ?_
      rw [Finset.sum_range_succ _ (j' + 1)]
      exact congrArg₂ (fun u v : EReal => u + v) (cnt_inv c k n (Nat.lt_of_succ_lt h) b j' (by omega) (by omega))
        (cnt_tile V c ⟨n + 1, h⟩ b (j' + 1) hj hn k)

/-! ## What the flushing points write back, and the two arrays after the region -/

/-- After the last point of batch `b` the sums buffer holds the batch's sums over all its pixels. -/
theorem sums_last (c : Dev nD) (hfin : ∀ i, IsReal (img V c i)) (t : Fin cfg0.N) (b : Fin 8) (ht : t.val = 4 * b.val + 3)
    (ch : Fin 128) (k : Fin 21) :
    (outsAt0 V c t.val t.isLt).1 (ix3 0 ch k) = sumsArr (img V c) (lab V c) (ix3 b ch k) := by
  refine (sums_inv V c hfin ch k t.val t.isLt b 3 (by decide) ht).trans ?_
  show ∑ j' ∈ Finset.range 4, tileSum (fun p => row (img V c) b ch p * hot (labs (lab V c) b p) k) j'
    = ∑ p, row (img V c) b ch p * hot (labs (lab V c) b p) k
  exact tiles_sum _

/-- and the counts buffer the batch's class sizes. -/
theorem cnt_last (c : Dev nD) (t : Fin cfg0.N) (b : Fin 8) (ht : t.val = 4 * b.val + 3) (k : Fin 21) :
    (outsAt0 V c t.val t.isLt).2 (ix3 0 0 k) = cntArr (lab V c) (ix3 b 0 k) := by
  refine (cnt_inv V c k t.val t.isLt b 3 (by decide) ht).trans ?_
  show ∑ j' ∈ Finset.range 4, tileSum (fun p => hot (labs (lab V c) b p) k) j' = ∑ p, hot (labs (lab V c) b p) k
  exact tiles_sum _

/-- A block of the sums array at point `t`, read at (0, ch, k), is the array at (t / 4, ch, k): for any contents. -/
theorem read_blk2 (G : SSum.Idx → EReal) (t : Fin cfg0.N) (b : Fin 8) (hb : t.val / 4 = b.val) (ch : Fin 128) (k : Fin 21) :
    ((cfg0.win 2).blk t).view.read (Elt Ideal) G (ix3 0 ch k) = G (ix3 b ch k) := by
  obtain ⟨-, -, -, -, -, -, e0, e1, e2, -⟩ := idx_facts t
  rw [View.read_apply]
  show G _ = G _
  congr 1
  funext a
  apply Fin.ext
  match a with
  | ⟨0, _⟩ => show win0_2.index t (0 : Fin 3) * 1 + 1 * 0 = b.val; omega
  | ⟨1, _⟩ => show win0_2.index t (1 : Fin 3) * 128 + 1 * ch.val = ch.val; omega
  | ⟨2, _⟩ => show win0_2.index t (2 : Fin 3) * 21 + 1 * k.val = k.val; omega

/-- A block of the counts array at point `t`, read at (0, 0, k), is the array at (t / 4, 0, k). -/
theorem read_blk3 (G : SCnt.Idx → EReal) (t : Fin cfg0.N) (b : Fin 8) (hb : t.val / 4 = b.val) (k : Fin 21) :
    ((cfg0.win 3).blk t).view.read (Elt Ideal) G (ix3 0 0 k) = G (ix3 b 0 k) := by
  obtain ⟨-, -, -, -, -, -, -, -, -, e0, e1, e2⟩ := idx_facts t
  rw [View.read_apply]
  show G _ = G _
  congr 1
  funext a
  apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 21 + 1 * k.val = k.val; omega

/-- What a flushing point (≡ 3 mod 4) writes back into the sums array is its block of the batch sums. -/
theorem flushed2_eq (c : Dev nD) (hfin : ∀ i, IsReal (img V c i)) (t : Fin cfg0.N) (hf : (cfg0.win 2).flush t = true) :
    (dat0 V c).flushed 2 t = ((cfg0.win 2).blk t).view.read (Elt Ideal) (sumsArr (img V c) (lab V c)) := by
  have h3 : t.val % 4 = 3 := (flush0_2 t).mp hf
  have hlt : t.val < 32 := lt_of_lt_of_eq t.isLt hN
  show (cfg0.win 2).cut (grid0.coords t) ((dat0 V c).after 2 t) = _
  rw [after0_2]
  refine funext fun (y : S1x128x21.Idx) => ?_
  obtain ⟨y0, ch, k, rfl⟩ : ∃ (y0 : Fin 1) (ch : Fin 128) (k : Fin 21), y = ix3 y0 ch k := ⟨y 0, y 1, y 2, eq_ix3 y⟩
  obtain rfl : y0 = 0 := Subsingleton.elim _ _
  show (outsAt0 V c t.val t.isLt).1 (ix3 0 ch k) = _
  exact (sums_last V c hfin t ⟨t.val / 4, by omega⟩ (by show t.val = 4 * (t.val / 4) + 3; omega) ch k).trans
    (read_blk2 (sumsArr (img V c) (lab V c)) t ⟨t.val / 4, by omega⟩ rfl ch k).symm

/-- and into the counts array its block of the class sizes. -/
theorem flushed3_eq (c : Dev nD) (t : Fin cfg0.N) (hf : (cfg0.win 3).flush t = true) :
    (dat0 V c).flushed 3 t = ((cfg0.win 3).blk t).view.read (Elt Ideal) (cntArr (lab V c)) := by
  have h3 : t.val % 4 = 3 := (flush0_3 t).mp hf
  have hlt : t.val < 32 := lt_of_lt_of_eq t.isLt hN
  show (cfg0.win 3).cut (grid0.coords t) ((dat0 V c).after 3 t) = _
  rw [after0_3]
  refine funext fun (y : S1x1x21.Idx) => ?_
  obtain ⟨y0, y1, k, rfl⟩ : ∃ (y0 : Fin 1) (y1 : Fin 1) (k : Fin 21), y = ix3 y0 y1 k := ⟨y 0, y 1, y 2, eq_ix3 y⟩
  obtain rfl : y0 = 0 := Subsingleton.elim _ _
  obtain rfl : y1 = 0 := Subsingleton.elim _ _
  show (outsAt0 V c t.val t.isLt).2 (ix3 0 0 k) = _
  exact (cnt_last V c t ⟨t.val / 4, by omega⟩ (by show t.val = 4 * (t.val / 4) + 3; omega) k).trans
    (read_blk3 (cntArr (lab V c)) t ⟨t.val / 4, by omega⟩ rfl k).symm

/-- Every entry of the sums array is in the block of its batch's last point. -/
theorem cover2 (i : SSum.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 21 := (i 2).isLt
  have ht : 4 * (i 0).val + 3 < cfg0.N := by rw [hN]; omega
  obtain ⟨-, -, -, -, -, -, e0, e1, e2, -⟩ := idx_facts ⟨4 * (i 0).val + 3, ht⟩
  have e0' : win0_2.index ⟨4 * (i 0).val + 3, ht⟩ (0 : Fin 3) = (4 * (i 0).val + 3) / 4 := e0
  refine ⟨⟨4 * (i 0).val + 3, ht⟩, (flush0_2 _).mpr (by show (4 * (i 0).val + 3) % 4 = 3; omega), ?_⟩
  show i ∈ ((View.whole main_v2_0).slice (win0_2.rect ⟨4 * (i 0).val + 3, ht⟩)).set
  rw [View.set_slice_whole, Rect.mem_set_unit]
  intro a
  match a with
  | ⟨0, _⟩ =>
    show win0_2.index ⟨4 * (i 0).val + 3, ht⟩ (0 : Fin 3) * 1 ≤ (i 0).val
      ∧ (i 0).val < win0_2.index ⟨4 * (i 0).val + 3, ht⟩ (0 : Fin 3) * 1 + 1
    omega
  | ⟨1, _⟩ =>
    show win0_2.index ⟨4 * (i 0).val + 3, ht⟩ (1 : Fin 3) * 128 ≤ (i 1).val
      ∧ (i 1).val < win0_2.index ⟨4 * (i 0).val + 3, ht⟩ (1 : Fin 3) * 128 + 128
    omega
  | ⟨2, _⟩ =>
    show win0_2.index ⟨4 * (i 0).val + 3, ht⟩ (2 : Fin 3) * 21 ≤ (i 2).val
      ∧ (i 2).val < win0_2.index ⟨4 * (i 0).val + 3, ht⟩ (2 : Fin 3) * 21 + 21
    omega

/-- Every entry of the counts array likewise. -/
theorem cover3 (i : SCnt.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 21 := (i 2).isLt
  have ht : 4 * (i 0).val + 3 < cfg0.N := by rw [hN]; omega
  obtain ⟨-, -, -, -, -, -, -, -, -, e0, e1, e2⟩ := idx_facts ⟨4 * (i 0).val + 3, ht⟩
  have e0' : win0_3.index ⟨4 * (i 0).val + 3, ht⟩ (0 : Fin 3) = (4 * (i 0).val + 3) / 4 := e0
  refine ⟨⟨4 * (i 0).val + 3, ht⟩, (flush0_3 _).mpr (by show (4 * (i 0).val + 3) % 4 = 3; omega), ?_⟩
  show i ∈ ((View.whole main_v2_1).slice (win0_3.rect ⟨4 * (i 0).val + 3, ht⟩)).set
  rw [View.set_slice_whole, Rect.mem_set_unit]
  intro a
  match a with
  | ⟨0, _⟩ =>
    show win0_3.index ⟨4 * (i 0).val + 3, ht⟩ (0 : Fin 3) * 1 ≤ (i 0).val
      ∧ (i 0).val < win0_3.index ⟨4 * (i 0).val + 3, ht⟩ (0 : Fin 3) * 1 + 1
    omega
  | ⟨1, _⟩ =>
    show win0_3.index ⟨4 * (i 0).val + 3, ht⟩ (1 : Fin 3) * 1 ≤ (i 1).val
      ∧ (i 1).val < win0_3.index ⟨4 * (i 0).val + 3, ht⟩ (1 : Fin 3) * 1 + 1
    omega
  | ⟨2, _⟩ =>
    show win0_3.index ⟨4 * (i 0).val + 3, ht⟩ (2 : Fin 3) * 21 ≤ (i 2).val
      ∧ (i 2).val < win0_3.index ⟨4 * (i 0).val + 3, ht⟩ (2 : Fin 3) * 21 + 21
    omega

/-- The sums array after the region, from the flattened image and labels the region finds. -/
theorem sums_final (c : Dev nD) (hfin : ∀ i, IsReal ((V c main_v0 : SImgF.Idx → EReal) i)) :
    ((dat0 V c).arrAt 2 cfg0.N : SSum.Idx → EReal) = sumsArr (V c main_v0) (V c main_v1) := by
  exact (dat0 V c).arrAt_eq_of_cover 2 (sumsArr (img V c) (lab V c)) (flushed2_eq V c hfin) cover2

/-- The counts array after the region. -/
theorem cnt_final (c : Dev nD) :
    ((dat0 V c).arrAt 3 cfg0.N : SCnt.Idx → EReal) = cntArr (V c main_v1) := by
  exact (dat0 V c).arrAt_eq_of_cover 3 (cntArr (lab V c)) (flushed3_eq V c) cover3

end Cert.KernelIdeal.SumsValue

end
-- ==== Proof.GatherPayload.lean ====
/-
  What one grid point of the gathering kernel stores, read at an index: the class means against the one-hot matrix of
  the point's labels.
-/
import proofs.«419666_j38439957300009_3_alg».proof.Proof.Gen.KernelIdeal.Skeleton
import proofs.«419666_j38439957300009_3_alg».proof.Proof.Spec
import Idealize.ShloMosaic.Lib.Pipeline.Value
import Idealize.ShloMosaic.Lib.ValueLayout
import Idealize.ShloMosaic.PureOps.Ideal.Laws

noncomputable section

namespace Cert.KernelIdeal.GatherPayload

open Idealize.ShloMosaic Idealize.ShloMosaic.TcCoe Idealize.ShloMosaic.ValueIdx Idealize.SL.Sem
open Idealize.ShloMosaic.Pipeline (Dat)
open Cert.KernelIdeal Cert.KernelIdeal.Gen Cert.SegMean

/-! ## The contraction's index maps, coordinate by coordinate -/

theorem lhs_0 (j : S128x16384.Idx) (k : dot_S128x42_S42x16384_S128x16384_1_0_0_1_n_n.contr.Idx) :
    (dot_S128x42_S42x16384_S128x16384_1_0_0_1_n_n.lhsIdx j k 0 : ℕ) = j 0 := by
  simp [DotDims.lhsIdx, dot_S128x42_S42x16384_S128x16384_1_0_0_1_n_n]; rfl
theorem lhs_1 (j : S128x16384.Idx) (k : dot_S128x42_S42x16384_S128x16384_1_0_0_1_n_n.contr.Idx) :
    (dot_S128x42_S42x16384_S128x16384_1_0_0_1_n_n.lhsIdx j k 1 : ℕ) = k ⟨0, by decide⟩ := by
  simp [DotDims.lhsIdx, dot_S128x42_S42x16384_S128x16384_1_0_0_1_n_n]; rfl
theorem rhs_0 (j : S128x16384.Idx) (k : dot_S128x42_S42x16384_S128x16384_1_0_0_1_n_n.contr.Idx) :
    (dot_S128x42_S42x16384_S128x16384_1_0_0_1_n_n.rhsIdx j k 0 : ℕ) = k ⟨0, by decide⟩ := by
  simp [DotDims.rhsIdx, dot_S128x42_S42x16384_S128x16384_1_0_0_1_n_n]; rfl
theorem rhs_1 (j : S128x16384.Idx) (k : dot_S128x42_S42x16384_S128x16384_1_0_0_1_n_n.contr.Idx) :
    (dot_S128x42_S42x16384_S128x16384_1_0_0_1_n_n.rhsIdx j k 1 : ℕ) = j 1 := by
  simp [DotDims.rhsIdx, dot_S128x42_S42x16384_S128x16384_1_0_0_1_n_n]; rfl

/-- The contraction's positions are the 42 columns of the left operand (the 42 rows of the right one). -/
abbrev contr42 : dot_S128x42_S42x16384_S128x16384_1_0_0_1_n_n.contr.Idx ≃ Fin 42 :=
  contrEquiv1 dot_S128x42_S42x16384_S128x16384_1_0_0_1_n_n 42 rfl rfl

/-- At output (c, q) and contraction position i the left operand is read at row c, column i … -/
theorem lhsIdx_eq (c : Fin 128) (q : Fin 16384) (i : Fin 42) :
    dot_S128x42_S42x16384_S128x16384_1_0_0_1_n_n.lhsIdx (ix2 c q) (contr42.symm i) = ix2 c i := by
  funext a
  refine Fin.ext ?_
  match a with
  | ⟨0, _⟩ => exact lhs_0 _ _
  | ⟨1, _⟩ => exact (lhs_1 _ _).trans (contrEquiv1_symm_val _ 42 rfl rfl i)

/-- … and the right operand at row i, column q. -/
theorem rhsIdx_eq (c : Fin 128) (q : Fin 16384) (i : Fin 42) :
    dot_S128x42_S42x16384_S128x16384_1_0_0_1_n_n.rhsIdx (ix2 c q) (contr42.symm i) = ix2 i q := by
  funext a
  refine Fin.ext ?_
  match a with
  | ⟨0, _⟩ => exact (rhs_0 _ _).trans (contrEquiv1_symm_val _ 42 rfl rfl i)
  | ⟨1, _⟩ => exact rhs_1 _ _

/-! ## The two concatenations read at an index -/

section Cat
variable {α : Type}

/-- Two 21-column blocks side by side: a column below 21 reads the first block … -/
theorem catCols_left (x₁ x₂ : S128x21.Idx → α) (c : Fin 128) (k : Fin 21) :
    concatenate S128x42 1 [⟨S128x21, x₁⟩, ⟨S128x21, x₂⟩] Facts₀.concatenates_S128x21_S128x21_S128x42_d1
      (ix2 c (Fin.castAdd 21 k)) = x₁ (ix2 c k) := by
  refine concatenate_pair_apply_left (t := S128x42) 1 x₁ x₂ Facts₀.concatenates_S128x21_S128x21_S128x42_d1
    (ix2 c (Fin.castAdd 21 k)) rfl (ix2 c k) fun b => ?_
  match b with
  | ⟨0, _⟩ => rfl
  | ⟨1, _⟩ => rfl

/-- … and column 21 + k reads the second block at column k. -/
theorem catCols_right (x₁ x₂ : S128x21.Idx → α) (c : Fin 128) (k : Fin 21) :
    concatenate S128x42 1 [⟨S128x21, x₁⟩, ⟨S128x21, x₂⟩] Facts₀.concatenates_S128x21_S128x21_S128x42_d1
      (ix2 c (Fin.natAdd 21 k)) = x₂ (ix2 c k) := by
  refine concatenate_pair_apply_right (t := S128x42) 1 x₁ x₂ Facts₀.concatenates_S128x21_S128x21_S128x42_d1
    (ix2 c (Fin.natAdd 21 k)) rfl rfl (ix2 c k) (fun b hb => ?_) ?_
  · match b with
    | ⟨0, _⟩ => rfl
    | ⟨1, _⟩ => exact absurd rfl hb
  · show k.val + 21 = 21 + k.val
    exact Nat.add_comm _ _

/-- Two 21-row blocks one above the other: a row below 21 reads the first block … -/
theorem catRows_left (x₁ x₂ : S21x16384.Idx → α) (k : Fin 21) (q : Fin 16384) :
    concatenate S42x16384 0 [⟨S21x16384, x₁⟩, ⟨S21x16384, x₂⟩] Facts₀.concatenates_S21x16384_S21x16384_S42x16384_d0
      (ix2 (Fin.castAdd 21 k) q) = x₁ (ix2 k q) := by
  refine concatenate_pair_apply_left (t := S42x16384) 0 x₁ x₂ Facts₀.concatenates_S21x16384_S21x16384_S42x16384_d0
    (ix2 (Fin.castAdd 21 k) q) rfl (ix2 k q) fun b => ?_
  match b with
  | ⟨0, _⟩ => rfl
  | ⟨1, _⟩ => rfl

/-- … and row 21 + k reads the second block at row k. -/
theorem catRows_right (x₁ x₂ : S21x16384.Idx → α) (k : Fin 21) (q : Fin 16384) :
    concatenate S42x16384 0 [⟨S21x16384, x₁⟩, ⟨S21x16384, x₂⟩] Facts₀.concatenates_S21x16384_S21x16384_S42x16384_d0
      (ix2 (Fin.natAdd 21 k) q) = x₂ (ix2 k q) := by
  refine concatenate_pair_apply_right (t := S42x16384) 0 x₁ x₂ Facts₀.concatenates_S21x16384_S21x16384_S42x16384_d0
    (ix2 (Fin.natAdd 21 k) q) rfl rfl (ix2 k q) (fun b hb => ?_) ?_
  · match b with
    | ⟨0, _⟩ => exact absurd rfl hb
    | ⟨1, _⟩ => rfl
  · show k.val + 21 = 21 + k.val
    exact Nat.add_comm _ _

end Cat

/-! ## The class means and the one-hot matrix, as the kernel builds them -/

/-- The block's class means: the sums over the counts plus the small constant, the counts' one row under every channel. -/
def means (s : FVec Ideal S1x128x21 .f32) (n : FVec Ideal S1x1x21 .f32) : FVec Ideal S128x21 .f32 :=
  divf (shapeCast S128x21 s Facts₀.shapeCasts_S1x128x21_S128x21)
    (broadcastTo S128x21
      (addf (shapeCast S1x21 n Facts₀.shapeCasts_S1x1x21_S1x21) (broadcast S1x21 (Scalar.ofBits (F := Ideal) .f32 0x322BCC77#32)))
      Facts₀.broadcasts_S1x21_S128x21)

/-- Channel c, class k of the means: the sum over the count plus the small constant. -/
theorem means_apply (s : FVec Ideal S1x128x21 .f32) (n : FVec Ideal S1x1x21 .f32) (c : Fin 128) (k : Fin 21) :
    means s n (ix2 c k) = Ideal.div (s (ix3 0 c k)) (n (ix3 0 0 k) + eps) := by
  unfold means
  rw [divf_apply, shapeCast_1ab_ab_apply, broadcastTo_1b_ab_apply, addf_apply, shapeCast_1ab_ab_apply]
  rfl

/-- The one-hot matrix of the block's labels: row k, column q is the comparison of k with pixel q's label, as a float. -/
def onehot (l : IVec S1x1x16384 32) : FVec Ideal S21x16384 .bf16 :=
  truncf .bf16
    (sitofp .f32
      (extui 32
        (cmpi .eq (iota .tc S21x16384 32 [0] Facts₀.iota_S21x16384_d0_w32)
          (broadcastTo S21x16384 (shapeCast S1x16384 l Facts₀.shapeCasts_S1x1x16384_S1x16384)
            Facts₀.broadcasts_S1x16384_S21x16384))
        Facts₀.natLt_1_32))
    Facts₀.bitsLt_bf16_f32

/-- An equality test's bit, widened and converted, is 1 when the words are equal and 0 otherwise. -/
theorem sitofp_eq_bit (x l : BitVec 32) :
    FloatOps.sitofp (F := Ideal) .f32 ((IntOp.cmpi .eq x l).setWidth 32) = if l = x then (1 : EReal) else 0 := by
  by_cases h : l = x
  · have hb : IntOp.cmpi .eq x l = 1#1 := by simp [IntOp.cmpi, h]
    have hi : ((1#1 : BitVec 1).setWidth 32).toInt = 1 := by decide
    rw [hb, if_pos h]
    show (((((1#1 : BitVec 1).setWidth 32).toInt : ℤ) : ℝ) : EReal) = 1
    rw [hi]; simp
  · have hb : IntOp.cmpi .eq x l = 0#1 := by
      have hx : (x == l) = false := beq_eq_false_iff_ne.mpr fun e => h e.symm
      show BitVec.ofBool (x == l) = 0#1
      rw [hx]; rfl
    have hi : ((0#1 : BitVec 1).setWidth 32).toInt = 0 := by decide
    rw [hb, if_neg h]
    show (((((0#1 : BitVec 1).setWidth 32).toInt : ℤ) : ℝ) : EReal) = 0
    rw [hi]; simp

/-- Row k, column q of the one-hot matrix is the one-hot entry of pixel q's label at class k. -/
theorem onehot_apply (l : IVec S1x1x16384 32) (k : Fin 21) (q : Fin 16384) :
    onehot l (ix2 k q) = hot (l (ix3 0 0 q)) k := by
  unfold onehot
  rw [truncf_apply, sitofp_apply, extui_apply]
  show FloatOps.sitofp (F := Ideal) .f32
      ((IntOp.cmpi .eq (iota .tc S21x16384 32 [0] Facts₀.iota_S21x16384_d0_w32 (ix2 k q))
        (broadcastTo S21x16384 (shapeCast S1x16384 l Facts₀.shapeCasts_S1x1x16384_S1x16384)
          Facts₀.broadcasts_S1x16384_S21x16384 (ix2 k q))).setWidth 32) = _
  rw [iota_single_apply, broadcastTo_1b_ab_apply, shapeCast_1ab_ab_apply, sitofp_eq_bit]
  rfl

/-! ## The payload -/

/-- The payload over the two named matrices: the means and the means less themselves side by side, against the one-hot
    matrix twice, one above the other. -/
theorem pay1_eq (l : IVec S1x1x16384 32) (s : FVec Ideal S1x128x21 .f32) (n : FVec Ideal S1x1x21 .f32) :
    k1_pay1 (F := Ideal) l s n
      = shapeCast S1x128x16384
          (matmul dot_S128x42_S42x16384_S128x16384_1_0_0_1_n_n none
            (concatenate S128x42 1
              [⟨S128x21, truncf .bf16 (means s n) Facts₀.bitsLt_bf16_f32⟩,
               ⟨S128x21, truncf .bf16 (subf (means s n) (means s n)) Facts₀.bitsLt_bf16_f32⟩]
              Facts₀.concatenates_S128x21_S128x21_S128x42_d1)
            (concatenate S42x16384 0 [⟨S21x16384, onehot l⟩, ⟨S21x16384, onehot l⟩]
              Facts₀.concatenates_S21x16384_S21x16384_S42x16384_d0)
            (constant S128x16384 .f32 0x00000000#32))
          Facts₀.shapeCasts_S128x16384_S1x128x16384 := rfl

/-- The stored block at channel `c`, pixel `q`: the one-hot sum over the classes of the class means (sum over count
    plus the small constant). The contraction runs over 42 entries, the means and then the means minus themselves,
    against the one-hot matrix twice; the second half is a sum of zeros because every mean is a real number. -/
theorem pay1_apply (l : IVec S1x1x16384 32) (s : FVec Ideal S1x128x21 .f32) (n : FVec Ideal S1x1x21 .f32)
    (hM : ∀ (c : Fin 128) (k : Fin 21), IsReal (Ideal.div (s (ix3 0 c k)) (n (ix3 0 0 k) + eps)))
    (c : Fin 128) (q : Fin 16384) :
    k1_pay1 (F := Ideal) l s n (ix3 0 c q)
      = pick (fun k => Ideal.div (s (ix3 0 c k)) (n (ix3 0 0 k) + eps)) (l (ix3 0 0 q)) := by
  rw [pay1_eq]
  -- the leading unit axis, then the product into the zero block: the sum over the contraction's positions
  refine (shapeCast_ab_1ab_apply _ _ 0 c q).trans ?_
  refine (Ideal.matmul_constant_zero_apply dot_S128x42_S42x16384_S128x16384_1_0_0_1_n_n none _ _ (ix2 c q)).trans ?_
  -- re-indexed by the 42 columns, each operand read at its own coordinates
  rw [← Equiv.sum_comp contr42.symm]
  simp only [lhsIdx_eq, rhsIdx_eq]
  -- 42 = 21 + 21: the means against the one-hot matrix, then the zeros against it
  refine (Fin.sum_univ_add (a := 21) (b := 21) _).trans ?_
  have h1 : ∀ k : Fin 21,
      concatenate S128x42 1
          [⟨S128x21, truncf .bf16 (means s n) Facts₀.bitsLt_bf16_f32⟩,
           ⟨S128x21, truncf .bf16 (subf (means s n) (means s n)) Facts₀.bitsLt_bf16_f32⟩]
          Facts₀.concatenates_S128x21_S128x21_S128x42_d1 (ix2 c (Fin.castAdd 21 k))
        * concatenate S42x16384 0 [⟨S21x16384, onehot l⟩, ⟨S21x16384, onehot l⟩]
          Facts₀.concatenates_S21x16384_S21x16384_S42x16384_d0 (ix2 (Fin.castAdd 21 k) q)
      = Ideal.div (s (ix3 0 c k)) (n (ix3 0 0 k) + eps) * hot (l (ix3 0 0 q)) k := fun k => by
    rw [catCols_left, catRows_left, truncf_apply, means_apply, onehot_apply]
  have h2 : ∀ k : Fin 21,
      concatenate S128x42 1
          [⟨S128x21, truncf .bf16 (means s n) Facts₀.bitsLt_bf16_f32⟩,
           ⟨S128x21, truncf .bf16 (subf (means s n) (means s n)) Facts₀.bitsLt_bf16_f32⟩]
          Facts₀.concatenates_S128x21_S128x21_S128x42_d1 (ix2 c (Fin.natAdd 21 k))
        * concatenate S42x16384 0 [⟨S21x16384, onehot l⟩, ⟨S21x16384, onehot l⟩]
          Facts₀.concatenates_S21x16384_S21x16384_S42x16384_d0 (ix2 (Fin.natAdd 21 k) q)
      = 0 := fun k => by
    rw [catCols_right, catRows_right, truncf_apply, subf_apply, means_apply, IsReal.sub_self (hM c k), zero_mul]
  rw [Finset.sum_congr rfl fun k _ => h1 k, Finset.sum_eq_zero fun k _ => h2 k, add_zero]
  rfl

end Cert.KernelIdeal.GatherPayload

end
-- ==== Proof.GatherValue.lean ====
/-
  The gathering kernel's result array: every pixel of every channel at the one-hot sum of its batch's class means.
-/
import proofs.«419666_j38439957300009_3_alg».proof.Proof.Gen.KernelIdeal.Frame
import proofs.«419666_j38439957300009_3_alg».proof.Proof.GatherPayload
import Idealize.ShloMosaic.Lib.Pipeline.Value
import Idealize.ShloMosaic.Lib.Tactic

set_option maxRecDepth 16384

noncomputable section

namespace Cert.KernelIdeal.GatherValue

open Idealize.ShloMosaic Idealize.ShloMosaic.TcCoe Idealize.ShloMosaic.ValueIdx Idealize.SL.Sem
open Idealize.ShloMosaic.Pipeline (Dat)
open Cert.KernelIdeal Cert.KernelIdeal.Gen Cert.SegMean

variable (V : (c : Dev nD) → (b : Ref sig .tc) → Buf (Elt Ideal) ((c : Thread nD τ).loc b))

/-- The three arrays the region reads, as it finds them, at their literal types: the flattened labels, the class sums
    and the class counts. -/
abbrev labOf (c : Dev nD) : SLabF.Idx → BitVec 32 := V c main_v1
abbrev sumsOf (c : Dev nD) : SSum.Idx → EReal := V c main_v2_0
abbrev cntOf (c : Dev nD) : SCnt.Idx → EReal := V c main_v2_1

/-- The zero offsets of a store or load of a whole rank-3 block. -/
theorem hz : (![0, 0, 0] : Fin 3 → Nat) = fun _ => 0 := funext fun a => by fin_cases a <;> rfl

/-- The pixel's own class mean, selected by the one-hot sum over the classes, from labels `L`, class sums `S` and
    class counts `N`: the function the result array ends holding. -/
abbrev meanAt (L : SLabF.Idx → BitVec 32) (S : SSum.Idx → EReal) (N : SCnt.Idx → EReal) : SImgF.Idx → EReal :=
  fun i => pick (fun k => Ideal.div (S (ix3 (i 0) (i 1) k)) (N (ix3 (i 0) 0 k) + eps)) (L (ix3 (i 0) 0 (i 2)))

/-- The block indices over the 8 × 4 grid, point `t = 4·batch + tile`: the labels' and the result's blocks are at
    (batch, 0, tile), the sums' and the counts' at (batch, 0, 0). -/
theorem idx_facts : ∀ t : Fin cfg1.N,
    win1_0.index t (0 : Fin 3) = t.val / 4 ∧ win1_0.index t (1 : Fin 3) = 0 ∧ win1_0.index t (2 : Fin 3) = t.val % 4
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = t.val % 4 :=
  (by decide +kernel : ∀ t : Fin grid1.N, _)

/-- One point's stored block at an index `j`, when the point's three input blocks are batch `b`'s labels from pixel
    `off` on, sums and counts: the class-mean selection of the arrays at the index `i` with batch `b`, `j`'s channel
    and pixel `off` + `j`'s pixel. -/
theorem stored_at (l : IVec S1x1x16384 32) (s : FVec Ideal S1x128x21 .f32) (n : FVec Ideal S1x1x21 .f32)
    (L : SLabF.Idx → BitVec 32) (S : SSum.Idx → EReal) (N : SCnt.Idx → EReal) (b : Fin 8) (off : Nat)
    (hl : ∀ (q : Fin 16384) (p : Fin 65536), p.val = off + q.val → l (ix3 0 0 q) = L (ix3 b 0 p))
    (hs : ∀ (ch : Fin 128) (k : Fin 21), s (ix3 0 ch k) = S (ix3 b ch k))
    (hn : ∀ k : Fin 21, n (ix3 0 0 k) = N (ix3 b 0 k))
    (hM : ∀ (ch : Fin 128) (k : Fin 21), IsReal (Ideal.div (S (ix3 b ch k)) (N (ix3 b 0 k) + eps)))
    (j : S1x128x16384.Idx) (i : SImgF.Idx)
    (h0 : (i 0).val = b.val) (h1 : (i 1).val = (j 1).val) (h2 : (i 2).val = off + (j 2).val) :
    k1_pay1 (F := Ideal) l s n j = meanAt L S N i := by
  obtain ⟨a, ch, q, rfl⟩ : ∃ a ch q, j = ix3 a ch q := ⟨j 0, j 1, j 2, eq_ix3 j⟩
  obtain ⟨b', ch', p, rfl⟩ : ∃ b' ch' p, i = ix3 b' ch' p := ⟨i 0, i 1, i 2, eq_ix3 i⟩
  obtain rfl : a = 0 := Fin.ext (by have := a.isLt; omega)
  obtain rfl : b = b' := Fin.ext h0.symm
  obtain rfl : ch = ch' := Fin.ext h1.symm
  rw [GatherPayload.pay1_apply l s n (fun c k => by rw [hs, hn]; exact hM c k) ch q]
  show pick _ _ = pick _ _
  rw [hl q p h2]
  congr 1
  funext k
  rw [hs, hn]

/-- The sums' block at a point of batch `b` is batch `b`'s sums. -/
theorem sums_block (c : Dev nD) (t : Fin cfg1.N) (b : Fin 8) (hb : b.val = t.val / 4) (ch : Fin 128) (k : Fin 21) :
    (iblk1 V c 1 t : FVec Ideal S1x128x21 .f32) (ix3 0 ch k) = sumsOf V c (ix3 b ch k) := by
  obtain ⟨-, -, -, e0, e1, e2, -⟩ := idx_facts t
  unfold iblk1
  show V c main_v2_0 (((cfg1.win 1).blk t).view.emb (ix3 0 ch k)) = V c main_v2_0 (ix3 b ch k)
  congr 1
  funext a; apply Fin.ext
  match a with
  | ⟨0, _⟩ => show win1_1.index t (0 : Fin 3) * 1 + 1 * 0 = b.val; omega
  | ⟨1, _⟩ => show win1_1.index t (1 : Fin 3) * 128 + 1 * ch.val = ch.val; omega
  | ⟨2, _⟩ => show win1_1.index t (2 : Fin 3) * 21 + 1 * k.val = k.val; omega

/-- The counts' block at a point of batch `b` is batch `b`'s counts. -/
theorem cnt_block (c : Dev nD) (t : Fin cfg1.N) (b : Fin 8) (hb : b.val = t.val / 4) (k : Fin 21) :
    (iblk1 V c 2 t : FVec Ideal S1x1x21 .f32) (ix3 0 0 k) = cntOf V c (ix3 b 0 k) := by
  obtain ⟨-, -, -, -, -, -, e0, e1, e2, -⟩ := idx_facts t
  unfold iblk1
  show V c main_v2_1 (((cfg1.win 2).blk t).view.emb (ix3 0 0 k)) = V c main_v2_1 (ix3 b 0 k)
  congr 1
  funext a; apply Fin.ext
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 21 + 1 * k.val = k.val; omega

/-- The labels' block at a point of batch `b` and tile `t % 4` is batch `b`'s labels from pixel 16384·tile on. -/
theorem lab_block (c : Dev nD) (t : Fin cfg1.N) (b : Fin 8) (hb : b.val = t.val / 4) (q : Fin 16384) (p : Fin 65536)
    (hp : p.val = 16384 * (t.val % 4) + q.val) :
    (iblk1 V c 0 t : IVec S1x1x16384 32) (ix3 0 0 q) = labOf V c (ix3 b 0 p) := by
  obtain ⟨e0, e1, e2, -⟩ := idx_facts t
  unfold iblk1
  show V c main_v1 (((cfg1.win 0).blk t).view.emb (ix3 0 0 q)) = V c main_v1 (ix3 b 0 p)
  congr 1
  funext a; apply Fin.ext
  match a with
  | ⟨0, _⟩ => show win1_0.index t (0 : Fin 3) * 1 + 1 * 0 = b.val; omega
  | ⟨1, _⟩ => show win1_0.index t (1 : Fin 3) * 1 + 1 * 0 = 0; omega
  | ⟨2, _⟩ => show win1_0.index t (2 : Fin 3) * 16384 + 1 * q.val = p.val; omega

/-- What a point writes back is its block of the class-mean selection of the arrays the region finds. -/
theorem flushed_eq (c : Dev nD)
    (hM : ∀ (b : Fin 8) (ch : Fin 128) (k : Fin 21),
      IsReal (Ideal.div (sumsOf V c (ix3 b ch k)) (cntOf V c (ix3 b 0 k) + eps)))
    (t : Fin cfg1.N) :
    (dat1 V c).flushed 3 t
      = ((cfg1.win 3).blk t).view.read (Elt Ideal) (meanAt (labOf V c) (sumsOf V c) (cntOf V c)) := by
  show (cfg1.win 3).cut (grid1.coords t) ((dat1 V c).after 3 t) = _
  rw [after1_3]
  unfold out1_3
  rw [View.canon_unit_zero hz]
  simp only [View.ld_unit_zero (S := S1x1x16384) hz, View.ld_unit_zero (S := S1x128x21) hz,
    View.ld_unit_zero (S := S1x1x21) hz]
  obtain ⟨-, -, -, -, -, -, -, -, -, e0, e1, e2⟩ := idx_facts t
  have ht : t.val < 32 := t.isLt
  funext j
  show k1_pay1 (F := Ideal) (iblk1 V c 0 t) (iblk1 V c 1 t) (iblk1 V c 2 t) j
    = meanAt (labOf V c) (sumsOf V c) (cntOf V c) (((cfg1.win 3).blk t).view.emb j)
  have hj0 : (j 0).val < 1 := (j 0).isLt
  have hj2 : (j 2).val < 16384 := (j 2).isLt
  refine stored_at (iblk1 V c 0 t) (iblk1 V c 1 t) (iblk1 V c 2 t) (labOf V c) (sumsOf V c) (cntOf V c)
    ⟨t.val / 4, by omega⟩ (16384 * (t.val % 4))
    (fun q p hp => lab_block V c t _ rfl q p hp) (fun ch k => sums_block V c t _ rfl ch k)
    (fun k => cnt_block V c t _ rfl k) (hM _) j _ ?_ ?_ ?_
  · show win1_3.index t (0 : Fin 3) * 1 + 1 * (j 0).val = t.val / 4; omega
  · show win1_3.index t (1 : Fin 3) * 128 + 1 * (j 1).val = (j 1).val; omega
  · show win1_3.index t (2 : Fin 3) * 16384 + 1 * (j 2).val = 16384 * (t.val % 4) + (j 2).val; omega

/-- An index of the result array is in a point's block iff each coordinate is in the block's range on its axis. -/
theorem mem_blk (t : Fin cfg1.N) (i : SImgF.Idx) :
    i ∈ ((cfg1.win 3).blk t).view.set
      ↔ ∀ a : Fin 3, win1_3.index t a * S1x128x16384.size a ≤ (i a).val
          ∧ (i a).val < win1_3.index t a * S1x128x16384.size a + S1x128x16384.size a := by
  show i ∈ ((View.whole main_v3).slice (win1_3.rect t)).set ↔ _
  rw [View.set_slice_whole, Rect.mem_set_unit]
  exact Iff.rfl

/-- Every index of the result array is in the block of the point 4·batch + pixel / 16384. -/
theorem covered (i : SImgF.Idx) :
    ∃ t : Fin cfg1.N, (cfg1.win 3).flush t = true ∧ i ∈ ((cfg1.win 3).blk t).view.set := by
  have hi0 : (i 0).val < 8 := (i 0).isLt
  have hi1 : (i 1).val < 128 := (i 1).isLt
  have hi2 : (i 2).val < 65536 := (i 2).isLt
  have hN : grid1.N = 32 := N_1
  have hlt : 4 * (i 0).val + (i 2).val / 16384 < grid1.N := by rw [hN]; omega
  obtain ⟨-, -, -, -, -, -, -, -, -, e0, e1, e2⟩ := idx_facts ⟨_, hlt⟩
  have e0' : win1_3.index ⟨_, hlt⟩ (0 : Fin 3) = (4 * (i 0).val + (i 2).val / 16384) / 4 := e0
  have e2' : win1_3.index ⟨_, hlt⟩ (2 : Fin 3) = (4 * (i 0).val + (i 2).val / 16384) % 4 := e2
  refine ⟨⟨_, hlt⟩, flush1_3 _, ?_⟩
  rw [mem_blk]
  intro a
  match a with
  | ⟨0, _⟩ =>
    show win1_3.index _ (0 : Fin 3) * 1 ≤ (i 0).val ∧ (i 0).val < win1_3.index _ (0 : Fin 3) * 1 + 1
    omega
  | ⟨1, _⟩ =>
    show win1_3.index _ (1 : Fin 3) * 128 ≤ (i 1).val ∧ (i 1).val < win1_3.index _ (1 : Fin 3) * 128 + 128
    omega
  | ⟨2, _⟩ =>
    show win1_3.index _ (2 : Fin 3) * 16384 ≤ (i 2).val ∧ (i 2).val < win1_3.index _ (2 : Fin 3) * 16384 + 16384
    omega

/-- The result array after the region, from the labels, sums and counts the region finds. -/
theorem out_final (c : Dev nD)
    (hM : ∀ (b : Fin 8) (ch : Fin 128) (k : Fin 21),
      IsReal (Ideal.div (sumsOf V c (ix3 b ch k)) (cntOf V c (ix3 b 0 k) + eps))) :
    ((dat1 V c).arrAt 3 cfg1.N : SImgF.Idx → EReal)
      = fun i => pick (fun k => Ideal.div (sumsOf V c (ix3 (i 0) (i 1) k)) (cntOf V c (ix3 (i 0) 0 k) + eps))
                  (labOf V c (ix3 (i 0) 0 (i 2))) :=
  (dat1 V c).arrAt_eq_of_cover 3 (meanAt (labOf V c) (sumsOf V c) (cntOf V c))
    (fun t _ => flushed_eq V c hM t) covered

end Cert.KernelIdeal.GatherValue

end
-- ==== Proof.KernelValue.lean ====
/-
  The kernel program's result array is THE RESULT of the specification: the host flattens the image's rows and columns,
  the first region leaves the class sums and counts, the second the class means gathered back to the pixels, and the
  host restores the image's shape.
-/
import proofs.«419666_j38439957300009_3_alg».proof.Proof.RunResult
import proofs.«419666_j38439957300009_3_alg».proof.Proof.SumsValue
import proofs.«419666_j38439957300009_3_alg».proof.Proof.GatherValue
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.SegMean

variable (m : (ℓ : Loc nD τ sig) → Buf (Elt Ideal) ℓ) (ρ : Dev nD → PrngReg)

/-- The two argument arrays at launch, at their literal types. -/
abbrev imgOf (c : Dev nD) : SImg.Idx → EReal := m ((c : Thread nD τ).loc main_arg0)
abbrev gtOf (c : Dev nD) : SLab.Idx → BitVec 32 := m ((c : Thread nD τ).loc main_arg1)

/-- Before the first region the host has flattened the image: entry (b, c, p) is the image's (b, c, p / 256, p % 256),
    the two having one row-major position. -/
theorem flat_img (c : Dev nD) : (V1 m ρ c main_v0 : SImgF.Idx → EReal) = flatImg (imgOf m c) := by
  have e : (V1 m ρ c main_v0 : SImgF.Idx → EReal)
      = shapeCast S8x128x65536 (imgOf m c) shapeCasts_S8x128x256x256_S8x128x65536 := by
    dsimp only [V1, W1, hostOps0]; after_results; rfl
  rw [e]
  funext i
  exact shapeCast_apply (imgOf m c) shapeCasts_S8x128x256x256_S8x128x65536 i
    (ix4 (i 0) (i 1) (pixRow (i 2)) (pixCol (i 2)))
    (by rewrite [Shape.rowMajor_val_four, Shape.rowMajor_val_three]
        have h2 : (i 2).val < 65536 := (i 2).isLt
        show (((i 0).val * 128 + (i 1).val) * 256 + (i 2).val / 256) * 256 + (i 2).val % 256
          = ((i 0).val * 128 + (i 1).val) * 65536 + (i 2).val
        omega)

/-- Likewise the labels. -/
theorem flat_lab (c : Dev nD) : (V1 m ρ c main_v1 : SLabF.Idx → BitVec 32) = flatLab (gtOf m c) := by
  have e : (V1 m ρ c main_v1 : SLabF.Idx → BitVec 32)
      = shapeCast S8x1x65536 (gtOf m c) shapeCasts_S8x1x256x256_S8x1x65536 := by
    dsimp only [V1, W1, hostOps0]; after_results; rfl
  rw [e]
  funext i
  exact shapeCast_apply (gtOf m c) shapeCasts_S8x1x256x256_S8x1x65536 i
    (ix4 (i 0) 0 (pixRow (i 2)) (pixCol (i 2)))
    (by rewrite [Shape.rowMajor_val_four, Shape.rowMajor_val_three]
        have h1 : (i 1).val < 1 := (i 1).isLt
        have h2 : (i 2).val < 65536 := (i 2).isLt
        show (((i 0).val * 1 + 0) * 256 + (i 2).val / 256) * 256 + (i 2).val % 256
          = ((i 0).val * 1 + (i 1).val) * 65536 + (i 2).val
        omega)

/-- The first region reads the labels and leaves them as it found them. -/
theorem lab_kept (c : Dev nD) : (V2 m ρ c main_v1 : SLabF.Idx → BitVec 32) = flatLab (gtOf m c) := by
  have e : V2 m ρ c main_v1 = V1 m ρ c main_v1 :=
    (W2_arr m ρ c 1).trans ((dat0 (V1 m ρ) c).arrAt_in 1 rfl _)
  rw [e]; exact flat_lab m ρ c

/-- After the first region the sums array holds the class sums of the flattened image, -/
theorem sums_at (c : Dev nD) (hfin : ∀ i, IsReal (imgOf m c i)) :
    (V2 m ρ c main_v2_0 : SSum.Idx → EReal) = sumsArr (flatImg (imgOf m c)) (flatLab (gtOf m c)) := by
  have e : (V2 m ρ c main_v2_0 : SSum.Idx → EReal) = ((dat0 (V1 m ρ) c).arrAt 2 cfg0.N : SSum.Idx → EReal) :=
    W2_arr m ρ c 2
  rw [e, SumsValue.sums_final (V1 m ρ) c (by rw [flat_img]; intro i; exact hfin _), flat_img, flat_lab]

/-- and the counts array the class sizes. -/
theorem cnt_at (c : Dev nD) :
    (V2 m ρ c main_v2_1 : SCnt.Idx → EReal) = cntArr (flatLab (gtOf m c)) := by
  have e : (V2 m ρ c main_v2_1 : SCnt.Idx → EReal) = ((dat0 (V1 m ρ) c).arrAt 3 cfg0.N : SCnt.Idx → EReal) :=
    W2_arr m ρ c 3
  rw [e, SumsValue.cnt_final (V1 m ρ) c, flat_lab]

/-- After the second region the flat result array holds, at every pixel, the mean of the pixel's class. -/
theorem out_at (c : Dev nD) (hfin : ∀ i, IsReal (imgOf m c i)) :
    (V3 m ρ c main_v3 : SImgF.Idx → EReal) = outArr (flatImg (imgOf m c)) (flatLab (gtOf m c)) := by
  have e : (V3 m ρ c main_v3 : SImgF.Idx → EReal) = ((dat1 (V2 m ρ) c).arrAt 3 cfg1.N : SImgF.Idx → EReal) :=
    W3_arr m ρ c 3
  have hs : GatherValue.sumsOf (V2 m ρ) c = sumsArr (flatImg (imgOf m c)) (flatLab (gtOf m c)) := sums_at m ρ c hfin
  have hc : GatherValue.cntOf (V2 m ρ) c = cntArr (flatLab (gtOf m c)) := cnt_at m ρ c
  have hl : GatherValue.labOf (V2 m ρ) c = flatLab (gtOf m c) := lab_kept m ρ c
  have hX : ∀ p, IsReal (flatImg (imgOf m c) p) := fun p => hfin _
  rw [e, GatherValue.out_final (V2 m ρ) c (by
    intro b ch k
    rw [hs, hc]
    exact isReal_segMean _ _ k (fun p => hX _))]
  rw [hs, hc, hl]
  rfl

/-- The host restores the image's shape: the result array is the specification's result. -/
theorem result_at (c : Dev nD) (hfin : ∀ i, IsReal (imgOf m c i)) :
    (W4 m ρ c (Proc.devRef .tc main_v4) : SImg.Idx → EReal) = result (imgOf m c) (gtOf m c) := by
  have e : (W4 m ρ c (Proc.devRef .tc main_v4) : SImg.Idx → EReal)
      = shapeCast S8x128x256x256 (V3 m ρ c main_v3 : SImgF.Idx → EReal) shapeCasts_S8x128x65536_S8x128x256x256 := by
    dsimp only [W4, V3, hostOps2]; after_results; rfl
  rw [e, out_at m ρ c hfin]
  funext i
  exact shapeCast_apply _ shapeCasts_S8x128x65536_S8x128x256x256 i
    (ix3 (i 0) (i 1) (pixFlat (i 2) (i 3)))
    (by rewrite [Shape.rowMajor_val_three, Shape.rowMajor_val_four]
        show ((i 0).val * 128 + (i 1).val) * 65536 + ((i 2).val * 256 + (i 3).val)
          = (((i 0).val * 128 + (i 1).val) * 256 + (i 2).val) * 256 + (i 3).val
        omega)

/-- THE KERNEL PROGRAM'S RUN, READ: for a finite image every weakly fair execution ends with the result array at the
    specification's result of the two arguments, and the arguments as launched. -/
theorem run (hfin : ∀ c i, IsReal (imgOf m c i)) :
    θ_run defs (onTc (τ := τ) (main (F := Ideal))) ⟨m, fun _ => 0, ρ⟩ (fun r => ∀ c : Dev nD,
      r.2.mem ((c.tc : Thread nD τ).loc main_v4) = result (imgOf m c) (gtOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_at m ρ c (hfin c)), (h c).2⟩)
    (Cert.KernelIdeal.GenRun.run_result m ρ)

end Cert.KernelIdeal.KernelValue

end
-- ==== Proof.LibScatterRows.lean ====
/-
  A table of rows indexed through a column of start indices, read at an index: the accumulating scatter (every row of the
  updates added onto the table row its start index names; a start index outside the table adds nothing) and the gather
  of rows (row `n` of the result is the table row the start index `n` names). General in the sizes: the dimension
  numbers are taken with the field values that jax's `segment_sum` / `.at[idx].add` over rows and `table[idx]` print.
-/
import Idealize.ShloMosaic.PureOps.Ideal
import Idealize.ShloMosaic.PureOps.ShapeOps
import Idealize.ShloMosaic.Lib.ValueIdx

noncomputable section

namespace Cert.LibScatterRows

open Idealize.ShloMosaic Idealize.ShloMosaic.ValueIdx

/-- An axis of a rank-2 shape is axis 0 or axis 1. -/
private theorem axis2_cases {n0 n1 : Nat} (a : Fin (⟨2, ![n0, n1]⟩ : Shape).rank) : a = 0 ∨ a = 1 := by
  match a with
  | ⟨0, _⟩ => exact Or.inl rfl
  | ⟨1, _⟩ => exact Or.inr rfl

/-- The row scatter's start and window coordinates on the table's two axes, for update index `j`: the start on axis 0
    is the start index of row `j 0` (read signed), on axis 1 it is 0 (the map does not name it); the window coordinate
    is 0 on axis 0 (an inserted axis) and `j 1` on axis 1 (the one window axis). -/
private theorem rows_parts {N C R w : Nat}
    (d : ScatterDims (⟨2, ![N, C]⟩ : Shape) (⟨2, ![R, 1]⟩ : Shape) (⟨2, ![R, C]⟩ : Shape))
    (huw : d.updateWindowDims = [1]) (hiw : d.insertedWindowDims = [0]) (hsd : d.scatterDimsToOperandDims = [0])
    (hiv : d.indexVectorDim = 1)
    (idx : IVec (⟨2, ![R, 1]⟩ : Shape) w) (j : (⟨2, ![R, C]⟩ : Shape).Idx) :
    d.start j idx 0 = (idx (ix2 (j 0) 0)).toInt ∧ d.start j idx 1 = 0 ∧ d.window j 0 = 0 ∧ d.window j 1 = (j 1).val := by
  obtain ⟨uw, iw, sd, iv, wf⟩ := d
  dsimp only at huw hiw hsd hiv
  subst huw hiw hsd hiv
  refine ⟨?_, ?_, ?_, ?_⟩
  · unfold ScatterDims.start
    rw [dif_pos (List.mem_singleton.mpr rfl)]
    congr 2
    funext b; refine Fin.ext ?_
    match b with
    | ⟨0, _⟩ => rfl
    | ⟨1, _⟩ => rfl
  · unfold ScatterDims.start
    rw [dif_neg (by simp)]
  · unfold ScatterDims.window
    rw [dif_neg (by simp [Shape.kept])]
  · unfold ScatterDims.window
    rw [dif_pos (by simp [Shape.kept])]
    rfl

/-- Update index `j` of the row scatter lands on table entry (s, c) exactly when the start index of its row, read
    signed, is `s` and its column is `c`. -/
private theorem rows_resultIdx_iff {N C R w : Nat}
    (d : ScatterDims (⟨2, ![N, C]⟩ : Shape) (⟨2, ![R, 1]⟩ : Shape) (⟨2, ![R, C]⟩ : Shape))
    (huw : d.updateWindowDims = [1]) (hiw : d.insertedWindowDims = [0]) (hsd : d.scatterDimsToOperandDims = [0])
    (hiv : d.indexVectorDim = 1)
    (idx : IVec (⟨2, ![R, 1]⟩ : Shape) w) (j : (⟨2, ![R, C]⟩ : Shape).Idx) (s : Fin N) (c : Fin C) :
    d.resultIdx? j idx = some (ix2 s c) ↔ ((idx (ix2 (j 0) 0)).toInt = (s.val : Int) ∧ j 1 = c) := by
  obtain ⟨h0, h1, g0, g1⟩ := rows_parts d huw hiw hsd hiv idx j
  unfold ScatterDims.resultIdx?
  constructor
  · intro h
    split at h
    · next hall =>
      have h' := Option.some.inj h
      have e0 : (d.start j idx 0 + d.window j 0).toNat = s.val := congrArg Fin.val (congrFun h' 0)
      have e1 : (d.start j idx 1 + d.window j 1).toNat = c.val := congrArg Fin.val (congrFun h' 1)
      have p0 := (hall 0).1
      rw [h0, g0] at e0 p0
      rw [h1, g1] at e1
      exact ⟨by omega, Fin.ext (by omega)⟩
    · exact absurd h (by simp)
  · rintro ⟨hs, hc⟩
    have hcv : (j 1).val = c.val := congrArg Fin.val hc
    have hsl : s.val < N := s.isLt
    have hcl : c.val < C := c.isLt
    have hall : ∀ a, 0 ≤ d.start j idx a + d.window j a ∧
        d.start j idx a + d.window j a < (⟨2, ![N, C]⟩ : Shape).size a := by
      intro a
      rcases axis2_cases a with rfl | rfl
      · show 0 ≤ d.start j idx 0 + d.window j 0 ∧ d.start j idx 0 + d.window j 0 < (N : Int)
        rw [h0, g0, hs]; omega
      · show 0 ≤ d.start j idx 1 + d.window j 1 ∧ d.start j idx 1 + d.window j 1 < (C : Int)
        rw [h1, g1, hcv]; omega
    rw [dif_pos hall]
    congr 1
    funext a; refine Fin.ext ?_
    rcases axis2_cases a with rfl | rfl
    · show (d.start j idx 0 + d.window j 0).toNat = s.val
      rw [h0, g0, hs]; omega
    · show (d.start j idx 1 + d.window j 1).toNat = c.val
      rw [h1, g1, hcv]; omega

/-- THE ACCUMULATING SCATTER OF ROWS. An [N × C] table, an [R × 1] column of start indices, [R × C] updates: entry
    (s, c) of the result is the table's entry plus the sum, over the update rows `n` whose start index (read signed)
    is `s`, of the update's entry (n, c). -/
theorem scatterAdd_rows_apply {N C R w : Nat}
    (d : ScatterDims (⟨2, ![N, C]⟩ : Shape) (⟨2, ![R, 1]⟩ : Shape) (⟨2, ![R, C]⟩ : Shape))
    (huw : d.updateWindowDims = [1]) (hiw : d.insertedWindowDims = [0]) (hsd : d.scatterDimsToOperandDims = [0])
    (hiv : d.indexVectorDim = 1)
    (x : (⟨2, ![N, C]⟩ : Shape).Idx → EReal) (idx : IVec (⟨2, ![R, 1]⟩ : Shape) w)
    (upd : (⟨2, ![R, C]⟩ : Shape).Idx → EReal) (s : Fin N) (c : Fin C) :
    Ideal.hostScatterAdd d x idx upd (ix2 s c)
      = x (ix2 s c) + ∑ n : Fin R, if (idx (ix2 n 0)).toInt = (s.val : Int) then upd (ix2 n c) else 0 := by
  unfold Ideal.hostScatterAdd
  congr 1
  -- the filtered sum over update indices is the sum of an `if`; an update index is a row and a column
  rw [Finset.sum_filter, sum_idx2]
  refine Finset.sum_congr rfl fun n _ => ?_
  have key : ∀ b : Fin C, d.resultIdx? (ix2 n b) idx = some (ix2 s c) ↔
      ((idx (ix2 n 0)).toInt = (s.val : Int) ∧ b = c) := fun b =>
    rows_resultIdx_iff d huw hiw hsd hiv idx (ix2 n b) s c
  by_cases hn : (idx (ix2 n 0)).toInt = (s.val : Int)
  · -- row `n` lands on row `s`: of its columns only `c` lands on column `c`
    rw [if_pos hn, Finset.sum_eq_single c]
    · rw [if_pos ((key c).2 ⟨hn, rfl⟩)]
    · intro b _ hb
      rw [if_neg fun h => hb ((key b).1 h).2]
    · intro h; exact absurd (Finset.mem_univ c) h
  · -- row `n` lands elsewhere (or nowhere): every column contributes 0
    rw [if_neg hn]
    refine Finset.sum_eq_zero fun b _ => ?_
    rw [if_neg fun h => hn ((key b).1 h).1]

/-- A rank-1 index set is its one coordinate's range … -/
private def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scalar scatter's start and window coordinate on the vector's one axis, for update index `j`: the start is the
    start index of row `j 0` (read signed); the window coordinate is 0 (the axis is inserted: there is no window). -/
private theorem vec_parts {N R w : Nat}
    (d : ScatterDims (⟨1, ![N]⟩ : Shape) (⟨2, ![R, 1]⟩ : Shape) (⟨1, ![R]⟩ : Shape))
    (huw : d.updateWindowDims = []) (hiw : d.insertedWindowDims = [0]) (hsd : d.scatterDimsToOperandDims = [0])
    (hiv : d.indexVectorDim = 1)
    (idx : IVec (⟨2, ![R, 1]⟩ : Shape) w) (j : (⟨1, ![R]⟩ : Shape).Idx) :
    d.start j idx 0 = (idx (ix2 (j 0) 0)).toInt ∧ d.window j 0 = 0 := by
  obtain ⟨uw, iw, sd, iv, wf⟩ := d
  dsimp only at huw hiw hsd hiv
  subst huw hiw hsd hiv
  refine ⟨?_, ?_⟩
  · unfold ScatterDims.start
    rw [dif_pos (List.mem_singleton.mpr rfl)]
    congr 2
    funext b; refine Fin.ext ?_
    match b with
    | ⟨0, _⟩ => rfl
    | ⟨1, _⟩ => rfl
  · unfold ScatterDims.window
    rw [dif_neg (by simp [Shape.kept])]

/-- Update index `j` of the scalar scatter lands on entry `s` exactly when its start index, read signed, is `s`. -/
private theorem vec_resultIdx_iff {N R w : Nat}
    (d : ScatterDims (⟨1, ![N]⟩ : Shape) (⟨2, ![R, 1]⟩ : Shape) (⟨1, ![R]⟩ : Shape))
    (huw : d.updateWindowDims = []) (hiw : d.insertedWindowDims = [0]) (hsd : d.scatterDimsToOperandDims = [0])
    (hiv : d.indexVectorDim = 1)
    (idx : IVec (⟨2, ![R, 1]⟩ : Shape) w) (j : (⟨1, ![R]⟩ : Shape).Idx) (s : Fin N) :
    d.resultIdx? j idx = some (ix1 s) ↔ (idx (ix2 (j 0) 0)).toInt = (s.val : Int) := by
  obtain ⟨h0, g0⟩ := vec_parts d huw hiw hsd hiv idx j
  unfold ScatterDims.resultIdx?
  constructor
  · intro h
    split at h
    · next hall =>
      have h' := Option.some.inj h
      have e0 : (d.start j idx 0 + d.window j 0).toNat = s.val := congrArg Fin.val (congrFun h' 0)
      have p0 := (hall 0).1
      rw [h0, g0] at e0 p0
      omega
    · exact absurd h (by simp)
  · intro hs
    have hsl : s.val < N := s.isLt
    have hall : ∀ a, 0 ≤ d.start j idx a + d.window j a ∧
        d.start j idx a + d.window j a < (⟨1, ![N]⟩ : Shape).size a := by
      intro a
      obtain rfl : a = 0 := Subsingleton.elim _ _
      show 0 ≤ d.start j idx 0 + d.window j 0 ∧ d.start j idx 0 + d.window j 0 < (N : Int)
      rw [h0, g0, hs]; omega
    rw [dif_pos hall]
    congr 1
    funext a; refine Fin.ext ?_
    obtain rfl : a = 0 := Subsingleton.elim _ _
    show (d.start j idx 0 + d.window j 0).toNat = s.val
    rw [h0, g0, hs]; omega

/-- THE ACCUMULATING SCATTER OF SCALARS. A length-N vector, an [R × 1] column of start indices, a length-R vector of
    updates: entry `s` of the result is the vector's entry plus the sum of the updates whose start index is `s`. -/
theorem scatterAdd_vec_apply {N R w : Nat}
    (d : ScatterDims (⟨1, ![N]⟩ : Shape) (⟨2, ![R, 1]⟩ : Shape) (⟨1, ![R]⟩ : Shape))
    (huw : d.updateWindowDims = []) (hiw : d.insertedWindowDims = [0]) (hsd : d.scatterDimsToOperandDims = [0])
    (hiv : d.indexVectorDim = 1)
    (x : (⟨1, ![N]⟩ : Shape).Idx → EReal) (idx : IVec (⟨2, ![R, 1]⟩ : Shape) w)
    (upd : (⟨1, ![R]⟩ : Shape).Idx → EReal) (s : Fin N) :
    Ideal.hostScatterAdd d x idx upd (ix1 s)
      = x (ix1 s) + ∑ n : Fin R, if (idx (ix2 n 0)).toInt = (s.val : Int) then upd (ix1 n) else 0 := by
  unfold Ideal.hostScatterAdd
  congr 1
  -- the filtered sum over update indices is the sum of an `if`; an update index is its one coordinate
  rw [Finset.sum_filter, sum_idx1]
  refine Finset.sum_congr rfl fun n _ => ?_
  have key : d.resultIdx? (ix1 n) idx = some (ix1 s) ↔ (idx (ix2 n 0)).toInt = (s.val : Int) :=
    vec_resultIdx_iff d huw hiw hsd hiv idx (ix1 n) s
  by_cases hn : (idx (ix2 n 0)).toInt = (s.val : Int)
  · rw [if_pos hn, if_pos (key.2 hn)]
  · rw [if_neg hn, if_neg fun h => hn (key.1 h)]

/-- The row gather's three coordinates on the table's two axes, for result index `j`: on axis 0 the start is the start
    index of row `j 0` read signed and clamped into [0, N − 1] (the slice there has size 1), with no batching and no
    offset coordinate (the axis is collapsed); on axis 1 the start is 0 (the map does not name it), there is no batching
    coordinate, and the offset coordinate is `j 1` (the one offset axis). -/
private theorem gather_parts {N C R w : Nat}
    (d : GatherDims (⟨2, ![N, C]⟩ : Shape) (⟨2, ![R, 1]⟩ : Shape) (⟨2, ![R, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (idx : IVec (⟨2, ![R, 1]⟩ : Shape) w) (j : (⟨2, ![R, C]⟩ : Shape).Idx) :
    d.start j idx 0 = min (idx (ix2 (j 0) 0)).toInt.toNat (N - 1) ∧ d.start j idx 1 = 0 ∧
      d.batchCoord j 0 = 0 ∧ d.batchCoord j 1 = 0 ∧ d.offCoord j 0 = 0 ∧ d.offCoord j 1 = (j 1).val := by
  obtain ⟨od, cd, ob, sb, sm, iv, ss, wf⟩ := d
  dsimp only at hod hcs hob hsb hsm hiv hss
  subst hod hcs hob hsb hsm hiv hss
  refine ⟨?_, ?_, ?_, ?_, ?_, ?_⟩
  · unfold GatherDims.start
    rw [dif_pos (List.mem_singleton.mpr rfl)]
    refine congrArg₂ min (congrArg (fun z => (idx z).toInt.toNat) ?_) rfl
    funext b; refine Fin.ext ?_
    match b with
    | ⟨0, _⟩ => rfl
    | ⟨1, _⟩ => rfl
  · unfold GatherDims.start
    rw [dif_neg (by simp)]
  · exact GatherDims.batchCoord_eq_zero _ _ _ List.not_mem_nil
  · exact GatherDims.batchCoord_eq_zero _ _ _ List.not_mem_nil
  · exact GatherDims.offCoord_eq_zero _ _ _ (fun h => ((GatherDims.mem_sKept _ _).mp h).1 (List.mem_singleton.mpr rfl))
  · unfold GatherDims.offCoord
    rw [dif_pos (by simp [Shape.kept])]
    rfl

/-- THE GATHER OF ROWS. Row `n` of the result is the table row its start index names, when that index (read signed) is
    inside the table (no clamping happens). -/
theorem gather_rows_apply {α : Type} {N C R w : Nat}
    (d : GatherDims (⟨2, ![N, C]⟩ : Shape) (⟨2, ![R, 1]⟩ : Shape) (⟨2, ![R, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec (⟨2, ![R, 1]⟩ : Shape) w) (n : Fin R) (c : Fin C)
    (s : Fin N) (hs : (idx (ix2 n 0)).toInt = (s.val : Int)) :
    Host.gather d x idx (ix2 n c) = x (ix2 s c) := by
  obtain ⟨s0, s1, b0, b1, o0, o1⟩ := gather_parts d hod hcs hob hsb hsm hiv hss idx (ix2 n c)
  have hs' : (idx (ix2 ((ix2 n c : (⟨2, ![R, C]⟩ : Shape).Idx) 0) 0)).toInt = (s.val : Int) := hs
  have hsl : s.val < N := s.isLt
  unfold Host.gather
  congr 1
  -- the operand index, axis by axis: clamped start + batching coordinate + offset coordinate
  funext a; refine Fin.ext ?_
  rcases axis2_cases a with rfl | rfl
  · show d.start (ix2 n c) idx 0 + d.batchCoord (ix2 n c) 0 + d.offCoord (ix2 n c) 0 = s.val
    rw [s0, b0, o0, hs']
    omega
  · show d.start (ix2 n c) idx 1 + d.batchCoord (ix2 n c) 1 + d.offCoord (ix2 n c) 1 = c.val
    rw [s1, b1, o1]
    show 0 + 0 + c.val = c.val
    omega

end Cert.LibScatterRows

end
-- ==== Proof.RefValue.lean ====
/-
  The reference's result is THE RESULT of the specification: its segment sums over all 8 × 65536 pixels, with segment
  number 21 · batch + label, are the per-batch class sums; its gather reads the class mean of the pixel's own label; its
  closing select keeps the gathered value because every label is a class.
-/
import proofs.«419666_j38439957300009_3_alg».proof.Proof.Gen.ReferenceIdeal.Read
import proofs.«419666_j38439957300009_3_alg».proof.Proof.Spec
import proofs.«419666_j38439957300009_3_alg».proof.Proof.LibScatterRows
import Idealize.ShloMosaic.Lib.StableHlo.Predicate

noncomputable section

namespace Cert.ReferenceIdeal.RefValue

open Idealize.ShloMosaic Idealize.ShloMosaic.ValueIdx Cert.SegMean
open Cert.ReferenceIdeal Cert.ReferenceIdeal.Gen Cert.ReferenceIdeal.Read

/-! ## The sum over all pixels with the segment test is the batch's class sum -/

/-- The batch of a flat pixel number n = 65536 · batch + pixel, and its pixel within the batch. -/
def nb (n : Fin 524288) : Fin 8 := ⟨n.val / 65536, by have := n.isLt; omega⟩
def np (n : Fin 524288) : Fin 65536 := ⟨n.val % 65536, Nat.mod_lt _ (by decide)⟩

/-- Flat pixel numbers are the pairs (batch, pixel within the batch). -/
def flatEquiv : Fin 8 × Fin 65536 ≃ Fin 524288 where
  toFun q := ⟨q.1.val * 65536 + q.2.val, by have := q.1.isLt; have := q.2.isLt; omega⟩
  invFun n := (nb n, np n)
  left_inv q := by
    have h1 := q.1.isLt; have h2 := q.2.isLt
    apply Prod.ext
    · apply Fin.ext; show (q.1.val * 65536 + q.2.val) / 65536 = q.1.val; omega
    · apply Fin.ext; show (q.1.val * 65536 + q.2.val) % 65536 = q.2.val; omega
  right_inv n := by
    apply Fin.ext; show n.val / 65536 * 65536 + n.val % 65536 = n.val; omega

/-- A sum over the flat pixel numbers is the double sum over the batches and the pixels of a batch. -/
theorem sum_flat {M : Type} [AddCommMonoid M] (f : Fin 8 → Fin 65536 → M) :
    ∑ n : Fin 524288, f (nb n) (np n) = ∑ b : Fin 8, ∑ p : Fin 65536, f b p := by
  rw [← Fintype.sum_prod_type']
  exact Equiv.sum_comp flatEquiv.symm (fun q => f q.1 q.2)

/-- The segment word 21 · batch + label does not wrap: its value is the number 21 · batch + label, below 168. -/
theorem seg_toNat (b : Fin 8) (lab : BitVec 32) (h : lab.toNat < 21) :
    (BitVec.ofNat 32 b.val * 21#32 + lab).toNat = 21 * b.val + lab.toNat := by
  have hb := b.isLt
  rw [BitVec.toNat_add, BitVec.toNat_mul, BitVec.toNat_ofNat, BitVec.toNat_ofNat]
  omega

/-- Read signed, the segment word is that same nonnegative number. -/
theorem seg_toInt (b : Fin 8) (lab : BitVec 32) (h : lab.toNat < 21) :
    (BitVec.ofNat 32 b.val * 21#32 + lab).toInt = ((21 * b.val + lab.toNat : Nat) : Int) := by
  have h1 := seg_toNat b lab h
  have hb := b.isLt
  rw [StableHlo.Predicate.toInt_eq_toNat_of_lt (by rw [h1]; omega), h1]

/-- 21 · b' + label = 21 · b + k with label, k below 21 forces b' = b and label = k. -/
theorem seg_test (b b' : Fin 8) (k : Fin 21) (lab : BitVec 32) (h : lab.toNat < 21) :
    (BitVec.ofNat 32 b'.val * 21#32 + lab).toInt = ((21 * b.val + k.val : Nat) : Int)
      ↔ (b' = b ∧ lab = BitVec.ofNat 32 k.val) := by
  rw [seg_toInt b' lab h]
  have hb := b.isLt; have hb' := b'.isLt; have hk := k.isLt
  have hkn : (BitVec.ofNat 32 k.val).toNat = k.val := by rw [BitVec.toNat_ofNat]; omega
  constructor
  · intro e
    have e' : 21 * b'.val + lab.toNat = 21 * b.val + k.val := by exact_mod_cast e
    exact ⟨Fin.ext (by omega), BitVec.eq_of_toNat_eq (by rw [hkn]; omega)⟩
  · rintro ⟨rfl, rfl⟩
    rw [hkn]

/-- THE SEGMENT SUM OVER ALL PIXELS IS THE BATCH'S CLASS SUM: over the flat pixel numbers, the values whose segment
    word is 21 · b + k add up to the sum, over batch b's pixels, of value × one-hot entry at class k (only batch b
    contributes, and there the test is "the label is k"). -/
theorem sum_seg (x : Fin 8 → Fin 65536 → EReal) (l : Fin 8 → Fin 65536 → BitVec 32)
    (hl : ∀ b p, (l b p).toNat < 21) (b : Fin 8) (k : Fin 21) :
    (∑ n : Fin 524288, if (BitVec.ofNat 32 (nb n).val * 21#32 + l (nb n) (np n)).toInt = ((21 * b.val + k.val : Nat) : Int)
        then x (nb n) (np n) else 0) = segSum (x b) (l b) k := by
  refine (sum_flat (fun b' p' => if (BitVec.ofNat 32 b'.val * 21#32 + l b' p').toInt = ((21 * b.val + k.val : Nat) : Int)
        then x b' p' else 0)).trans ?_
  rw [Finset.sum_eq_single b]
  · unfold segSum
    refine Finset.sum_congr rfl fun p _ => ?_
    unfold hot
    by_cases hp : l b p = BitVec.ofNat 32 k.val
    · rw [if_pos ((seg_test b b k _ (hl b p)).2 ⟨rfl, hp⟩), if_pos hp, mul_one]
    · rw [if_neg (fun e => hp ((seg_test b b k _ (hl b p)).1 e).2), if_neg hp, mul_zero]
  · intro b' _ hb'
    refine Finset.sum_eq_zero fun p _ => ?_
    rw [if_neg (fun e => hb' ((seg_test b b' k _ (hl b' p)).1 e).1)]
  · intro h; exact absurd (Finset.mem_univ b) h

/-- The same with every value 1: the pixels whose segment word is 21 · b + k are counted by the batch's class count. -/
theorem sum_seg_one (l : Fin 8 → Fin 65536 → BitVec 32)
    (hl : ∀ b p, (l b p).toNat < 21) (b : Fin 8) (k : Fin 21) :
    (∑ n : Fin 524288, if (BitVec.ofNat 32 (nb n).val * 21#32 + l (nb n) (np n)).toInt = ((21 * b.val + k.val : Nat) : Int)
        then (1 : EReal) else 0) = segCnt (l b) k := by
  refine (sum_seg (fun _ _ => (1 : EReal)) l hl b k).trans ?_
  unfold segSum segCnt
  exact Finset.sum_congr rfl fun p _ => one_mul _

/-- The all-zero pattern denotes 0, and the pattern of 1.0 denotes 1. -/
theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num

/-! ## The stages, read at an index -/

/-- Stages v0–v7: the segment word of flat pixel n is 21 · batch + the pixel's label. -/
theorem seg_word (gt : SLab.Idx → BitVec 32) (n : Fin 524288) :
    val_main_v7 (F := Ideal) gt (ix1 n) = BitVec.ofNat 32 (nb n).val * 21#32 + labs (flatLab gt) (nb n) (np n) := by
  have e7 : idx_main_v7 (ix1 n) = ix2 (nb n) (np n) :=
    funext fun a => Fin.ext (by match a with | ⟨0, _⟩ => rfl | ⟨1, _⟩ => rfl)
  have e5 : idx_main_v5 (ix2 (nb n) (np n)) = ix2 (nb n) (0 : Fin 1) :=
    funext fun a => Fin.ext (by match a with | ⟨0, _⟩ => rfl | ⟨1, _⟩ => rfl)
  have e2 : idx_main_v2 (ix2 (nb n) (0 : Fin 1)) = ix1 (nb n) :=
    funext fun a => Fin.ext (by match a with | ⟨0, _⟩ => rfl)
  have e0 : idx_main_v0 (ix2 (nb n) (np n)) = ix4 (nb n) (0 : Fin 1) (pixRow (np n)) (pixCol (np n)) := by
    have h1 := (nb n).isLt; have h2 := (np n).isLt
    funext a; apply Fin.ext
    match a with
    | ⟨0, _⟩ => show ((nb n).val * 65536 + (np n).val) / 65536 = (nb n).val; omega
    | ⟨1, _⟩ => rfl
    | ⟨2, _⟩ => show ((nb n).val * 65536 + (np n).val) / 256 % 256 = (np n).val / 256; omega
    | ⟨3, _⟩ => show ((nb n).val * 65536 + (np n).val) % 256 = (np n).val % 256; omega
  rw [val_main_v7_apply, e7, val_main_v6_apply, val_main_v5_apply, e5, val_main_v4_apply, val_main_v2_apply, e2,
    val_main_v1_apply, val_main_v3_apply, val_main_c_apply, val_main_v0_apply, e0]
  rfl

/-- Stages v8, v9 (transpose, then flatten): row n of the data is the pixel's channel values. -/
theorem data_row (img : SImg.Idx → EReal) (n : Fin 524288) (c : Fin 128) :
    val_main_v9 (F := Ideal) img (ix2 n c) = row (flatImg img) (nb n) c (np n) := by
  have e : idx_main_v8 (idx_main_v9 (ix2 n c)) = ix4 (nb n) c (pixRow (np n)) (pixCol (np n)) := by
    have h1 := n.isLt; have h2 := c.isLt
    funext a; apply Fin.ext
    match a with
    | ⟨0, _⟩ => show (n.val * 128 + c.val) / 8388608 = n.val / 65536; omega
    | ⟨1, _⟩ => show (n.val * 128 + c.val) % 128 = c.val; omega
    | ⟨2, _⟩ => show (n.val * 128 + c.val) / 32768 % 256 = n.val % 65536 / 256; omega
    | ⟨3, _⟩ => show (n.val * 128 + c.val) / 128 % 256 = n.val % 65536 % 256; omega
  rw [val_main_v9_apply, val_main_v8_apply, e]
  rfl

/-- Stage v12: the scattered sums at segment 21 · b + k are batch b's class-k sums. -/
theorem sums_at (img : SImg.Idx → EReal) (gt : SLab.Idx → BitVec 32) (hrange : ∀ i, (gt i).toNat < 21)
    (b : Fin 8) (k : Fin 21) (c : Fin 128) (hs : 21 * b.val + k.val < 168) :
    val_main_v12 (F := Ideal) img gt (ix2 (⟨21 * b.val + k.val, hs⟩ : Fin 168) c)
      = segSum (row (flatImg img) b c) (labs (flatLab gt) b) k := by
  have e11 : ∀ n : Fin 524288, idx_main_v11 (ix2 n (0 : Fin 1)) = ix1 n := fun n =>
    funext fun a => Fin.ext (by match a with | ⟨0, _⟩ => rfl)
  -- at the extended reals the accumulating scatter is the exact sum
  have hv : val_main_v12 (F := Ideal) img gt = Ideal.hostScatterAdd scatter_S168x128_S524288x1_S524288x128_1_0_0_1
      (val_main_v10 (F := Ideal)) (val_main_v11 (F := Ideal) gt) (val_main_v9 (F := Ideal) img) := rfl
  have h0 : val_main_v10 (F := Ideal) (ix2 (⟨21 * b.val + k.val, hs⟩ : Fin 168) c) = (0 : EReal) := by
    rw [val_main_v10_apply, val_main_cst_apply]; exact ofBits_zero
  rw [hv, Cert.LibScatterRows.scatterAdd_rows_apply scatter_S168x128_S524288x1_S524288x128_1_0_0_1 rfl rfl rfl rfl,
    h0, zero_add]
  refine Eq.trans (Finset.sum_congr rfl fun n _ => ?_)
    (sum_seg (fun b' p' => row (flatImg img) b' c p') (fun b' p' => labs (flatLab gt) b' p') (fun b' p' => hrange _) b k)
  rw [val_main_v11_apply, e11, seg_word, data_row]

/-- Stage v16: the scattered ones at segment 21 · b + k count batch b's pixels of class k. -/
theorem cnt_at (gt : SLab.Idx → BitVec 32) (hrange : ∀ i, (gt i).toNat < 21)
    (b : Fin 8) (k : Fin 21) (hs : 21 * b.val + k.val < 168) :
    val_main_v16 (F := Ideal) gt (ix1 (⟨21 * b.val + k.val, hs⟩ : Fin 168)) = segCnt (labs (flatLab gt) b) k := by
  have e15 : ∀ n : Fin 524288, idx_main_v15 (ix2 n (0 : Fin 1)) = ix1 n := fun n =>
    funext fun a => Fin.ext (by match a with | ⟨0, _⟩ => rfl)
  -- at the extended reals the accumulating scatter is the exact sum
  have hv : val_main_v16 (F := Ideal) gt = Ideal.hostScatterAdd scatter_S168_S524288x1_S524288_n_0_0_1
      (val_main_v14 (F := Ideal)) (val_main_v15 (F := Ideal) gt) (val_main_v13 (F := Ideal)) := rfl
  have h0 : val_main_v14 (F := Ideal) (ix1 (⟨21 * b.val + k.val, hs⟩ : Fin 168)) = (0 : EReal) := by
    rw [val_main_v14_apply, val_main_cst_1_apply]; exact ofBits_zero
  have h1 : ∀ n : Fin 524288, val_main_v13 (F := Ideal) (ix1 n) = (1 : EReal) := fun n => by
    rw [val_main_v13_apply, val_main_cst_0_apply]; exact ofBits_one
  rw [hv, Cert.LibScatterRows.scatterAdd_vec_apply scatter_S168_S524288x1_S524288_n_0_0_1 rfl rfl rfl rfl,
    h0, zero_add]
  refine Eq.trans (Finset.sum_congr rfl fun n _ => ?_)
    (sum_seg_one (fun b' p' => labs (flatLab gt) b' p') (fun b' p' => hrange _) b k)
  rw [val_main_v15_apply, e15, seg_word, h1]

/-- Stages v17–v21: the quotient at segment 21 · b + k is batch b's class-k mean. -/
theorem mean_at (img : SImg.Idx → EReal) (gt : SLab.Idx → BitVec 32) (hrange : ∀ i, (gt i).toNat < 21)
    (b : Fin 8) (k : Fin 21) (c : Fin 128) (hs : 21 * b.val + k.val < 168) :
    val_main_v21 (F := Ideal) img gt (ix2 (⟨21 * b.val + k.val, hs⟩ : Fin 168) c)
      = segMean (row (flatImg img) b c) (labs (flatLab gt) b) k := by
  have e20 : idx_main_v20 (ix2 (⟨21 * b.val + k.val, hs⟩ : Fin 168) c) = ix2 (⟨21 * b.val + k.val, hs⟩ : Fin 168) (0 : Fin 1) :=
    funext fun a => Fin.ext (by match a with | ⟨0, _⟩ => rfl | ⟨1, _⟩ => rfl)
  have e17 : idx_main_v17 (ix2 (⟨21 * b.val + k.val, hs⟩ : Fin 168) (0 : Fin 1)) = ix1 (⟨21 * b.val + k.val, hs⟩ : Fin 168) :=
    funext fun a => Fin.ext (by match a with | ⟨0, _⟩ => rfl)
  rw [val_main_v21_apply, sums_at img gt hrange b k c hs, val_main_v20_apply, e20, val_main_v19_apply, val_main_v17_apply, e17,
    cnt_at gt hrange b k hs, val_main_v18_apply, val_main_cst_2_apply]
  rfl

/-- Stages v22–v27: the take's index is the segment word itself (it is not negative), the number 21 · batch + label. -/
theorem take_toInt (gt : SLab.Idx → BitVec 32) (hrange : ∀ i, (gt i).toNat < 21) (n : Fin 524288) :
    (val_main_v27 (F := Ideal) gt (ix2 n (0 : Fin 1))).toInt
      = ((21 * (nb n).val + (labs (flatLab gt) (nb n) (np n)).toNat : Nat) : Int) := by
  have e27 : idx_main_v27 (ix2 n (0 : Fin 1)) = ix1 n :=
    funext fun a => Fin.ext (by match a with | ⟨0, _⟩ => rfl)
  have hl : (labs (flatLab gt) (nb n) (np n)).toNat < 21 := hrange _
  have hlt : ¬ IntOp.cmpi .slt (BitVec.ofNat 32 (nb n).val * 21#32 + labs (flatLab gt) (nb n) (np n)) 0#32 = 1#1 := by
    rw [StableHlo.Predicate.slt_iff_toNat (by rw [seg_toNat _ _ hl]; have := (nb n).isLt; omega) (by decide)]
    exact Nat.not_lt_zero _
  rw [val_main_v27_apply, e27, val_main_v26_apply, val_main_v23_apply, val_main_v22_apply, val_main_c_3_apply, seg_word,
    eq_zero_of_ne_one hlt, select_zero]
  exact seg_toInt _ _ hl

/-- Stage v28: row n of the gather is the mean of the pixel's own class within its batch. -/
theorem gathered (img : SImg.Idx → EReal) (gt : SLab.Idx → BitVec 32) (hrange : ∀ i, (gt i).toNat < 21)
    (n : Fin 524288) (c : Fin 128) (b : Fin 8) (p : Fin 65536) (hb : nb n = b) (hp : np n = p) :
    val_main_v28 (F := Ideal) img gt (ix2 n c)
      = segMean (row (flatImg img) b c) (labs (flatLab gt) b) ⟨(labs (flatLab gt) b p).toNat, hrange _⟩ := by
  subst hb hp
  have hl : (labs (flatLab gt) (nb n) (np n)).toNat < 21 := hrange _
  have hs : 21 * (nb n).val + (labs (flatLab gt) (nb n) (np n)).toNat < 168 := by have := (nb n).isLt; omega
  have hv : val_main_v28 (F := Ideal) img gt = Host.gather gather_S168x128_S524288x1_S524288x128_1_0_n_n_0_1_1128
      (val_main_v21 (F := Ideal) img gt) (val_main_v27 (F := Ideal) gt) := rfl
  rw [hv, Cert.LibScatterRows.gather_rows_apply gather_S168x128_S524288x1_S524288x128_1_0_n_n_0_1_1128 rfl rfl rfl rfl rfl rfl rfl
    (val_main_v21 (F := Ideal) img gt) (val_main_v27 (F := Ideal) gt) n c ⟨_, hs⟩ (take_toInt gt hrange n)]
  exact mean_at img gt hrange (nb n) ⟨_, hl⟩ c hs

/-- The reference's last stage is the specification's result, for real image values and labels among the classes. -/
theorem ref_value (img : SImg.Idx → EReal) (gt : SLab.Idx → BitVec 32)
    (hfin : ∀ i, IsReal (img i)) (hrange : ∀ i, (gt i).toNat < 21) :
    Cert.ReferenceIdeal.Read.val_main_v36 (F := Ideal) img gt = result img gt := by
  funext i
  obtain ⟨b, c, h, w, rfl⟩ : ∃ (b : Fin 8) (c : Fin 128) (h w : Fin 256), i = ix4 b c h w :=
    ⟨i 0, i 1, i 2, i 3, eq_ix4 i⟩
  have hb := b.isLt; have hc := c.isLt; have hh := h.isLt; have hw := w.isLt
  obtain ⟨n, hn⟩ : ∃ n : Fin 524288, n.val = (b.val * 256 + h.val) * 256 + w.val := ⟨⟨_, by omega⟩, rfl⟩
  have ec : idx_main_call0_v0 (ix4 b c h w) = ix4 b (0 : Fin 1) h w :=
    funext fun a => Fin.ext (by match a with | ⟨0, _⟩ => rfl | ⟨1, _⟩ => rfl | ⟨2, _⟩ => rfl | ⟨3, _⟩ => rfl)
  have e30 : idx_main_v30 (ix4 b c h w) = ix4 b h w c :=
    funext fun a => Fin.ext (by match a with | ⟨0, _⟩ => rfl | ⟨1, _⟩ => rfl | ⟨2, _⟩ => rfl | ⟨3, _⟩ => rfl)
  have e29 : idx_main_v29 (ix4 b h w c) = ix2 n c := by
    funext a; apply Fin.ext
    match a with
    | ⟨0, _⟩ => show (((b.val * 256 + h.val) * 256 + w.val) * 128 + c.val) / 128 = n.val; omega
    | ⟨1, _⟩ => show (((b.val * 256 + h.val) * 256 + w.val) * 128 + c.val) % 128 = c.val; omega
  have hnb : nb n = b := Fin.ext (by show n.val / 65536 = b.val; omega)
  have hnp : np n = pixFlat h w := Fin.ext (by show n.val % 65536 = h.val * 256 + w.val; omega)
  -- the closing select's condition holds: 0 ≤ label and label < 21, both read signed
  have hg : (gt (ix4 b (0 : Fin 1) h w)).toNat < 21 := hrange _
  have h32 : IntOp.cmpi .sge (gt (ix4 b (0 : Fin 1) h w)) 0#32 = 1#1 :=
    (StableHlo.Predicate.sge_iff_toNat (by omega) (by decide)).2 (Nat.zero_le _)
  have h34 : IntOp.cmpi .slt (gt (ix4 b (0 : Fin 1) h w)) 21#32 = 1#1 :=
    (StableHlo.Predicate.slt_iff_toNat (by omega) (by decide)).2 hg
  have hsel : val_main_call0_v0 (F := Ideal) gt (ix4 b c h w) = 1#1 := by
    rw [val_main_call0_v0_apply, ec, val_main_v35_apply, val_main_v32_apply, val_main_v34_apply, val_main_v31_apply,
      val_main_v33_apply, val_main_c_5_apply, val_main_c_6_apply, h32, h34]
    rfl
  rw [val_main_v36_apply, hsel, select_one, val_main_v30_apply, e30, val_main_v29_apply, e29,
    gathered img gt hrange n c b (pixFlat h w) hnb hnp]
  -- the specification's one-hot sum over the classes picks the same class mean
  show _ = pick (segMean (row (flatImg img) b c) (labs (flatLab gt) b)) (flatLab gt (ix3 b (0 : Fin 1) (pixFlat h w)))
  have hl : (flatLab gt (ix3 b (0 : Fin 1) (pixFlat h w))).toNat < 21 := hrange _
  exact (pick_eq _ _ hl).symm

end Cert.ReferenceIdeal.RefValue

end
-- ==== Proof.PreDecode.lean ====
/-
  What the precondition says of the two inputs: every image value is a real number, and every label is one of the 21
  classes.

  The precondition is the conjunction of three tests, each taken over all elements: |img| < +∞, 0 ≤ gt, gt < 21 (the
  last two on the labels read as signed words). The conjunction being 1, each test is 1 at every element. An extended
  real whose absolute value max x (-x) lies below +∞ is neither infinity, so it is a real number; a word that is
  non-negative as a signed number reads the same unsigned, so being below 21 signed it is below 21 unsigned.
-/
import proofs.«419666_j38439957300009_3_alg».proof.Pre_finite_inputs
import proofs.«419666_j38439957300009_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.SegMean

/-- The rank-0 shape has one index. -/
instance subsingleton_S_ : Subsingleton Cert.Pre_finite_inputs.S_.Idx := ⟨fun a b => funext fun d => d.elim0⟩

/-- The f32 pattern 0x7F800000 denotes +∞. -/
theorem inf_eq_top : Ideal.ofBits .f32 0x7F800000#32 = (⊤ : EReal) := by simp [Ideal.ofBits, Ideal.ieee]

/-- An extended real whose absolute value (the larger of x and -x) is below +∞ is a real number. -/
theorem isReal_of_abs_lt_top (x : EReal) (h : Ideal.cmp .olt (max x (-x)) (⊤ : EReal) = 1#1) : IsReal x := by
  unfold Ideal.cmp at h
  rw [StableHlo.Predicate.ofBool_eq_one_iff, decide_eq_true_eq] at h
  induction x using EReal.rec with
  | bot => simp at h
  | top => simp at h
  | coe r => exact ⟨r, rfl⟩

/-- A word that is ≥ 0 and < 21 as a signed number has unsigned value below 21. -/
theorem toNat_lt_of_signed (w : BitVec 32) (h0 : IntOp.cmpi .sge w 0#32 = 1#1) (h1 : IntOp.cmpi .slt w 21#32 = 1#1) :
    w.toNat < 21 := by
  unfold IntOp.cmpi at h0 h1
  rw [StableHlo.Predicate.ofBool_eq_one_iff] at h0 h1
  simp only [BitVec.slt, BitVec.sle, decide_eq_true_eq] at h0 h1
  have h32 := w.isLt
  have e0 : (0#32 : BitVec 32).toInt = 0 := by decide
  have e21 : (21#32 : BitVec 32).toInt = 21 := by decide
  rw [e0] at h0
  rw [e21] at h1
  rw [BitVec.toInt_eq_toNat_cond] at h0 h1
  split at h0 <;> omega

/-- The printed precondition, all ones, gives: every value finite, every label in [0, 21). -/
theorem of_pre [Cert.Pre_finite_inputs.Facts] (img : FVec Ideal Cert.Pre_finite_inputs.S8x128x256x256 .f32)
    (gt : IVec Cert.Pre_finite_inputs.S8x1x256x256 32)
    (h : Cert.Pre_finite_inputs.fn (F := Ideal) img gt = fun _ => 1#1) :
    (∀ i, IsReal (img i)) ∧ ∀ i, (gt i).toNat < 21 := by
  have h0 := congrFun h ValueIdx.ix0
  dsimp only [Cert.Pre_finite_inputs.fn] at h0
  -- the conjunction of the three tests is 1: each test is 1
  obtain ⟨h12, h3⟩ := IntOp.andi_eq_one.1 h0
  obtain ⟨h1, h2⟩ := IntOp.andi_eq_one.1 h12
  refine ⟨fun i => ?_, fun i => ?_⟩
  · -- the first test at element i: |img i| < +∞
    have e := Host.reduce_andi_all _ _ _ _ _ h1 i
    exact isReal_of_abs_lt_top (img i) (by rw [← inf_eq_top]; exact e)
  · -- the second and third tests at element i: 0 ≤ gt i and gt i < 21, signed
    have e0 := Host.reduce_andi_all _ _ _ _ _ h2 i
    have e1 := Host.reduce_andi_all _ _ _ _ _ h3 i
    exact toNat_lt_of_signed (gt i) e0 e1

end Cert.PreDecode

end
-- ==== Proof.lean ====
/-
  Per batch and class, the mean of a channel over the pixels of that class, written back to every pixel of the class.

  The kernel computes it in two passes over the flattened image: the class sums and sizes as products of the image
  block with the one-hot matrix of the block's labels, accumulated over the four blocks of a batch; then the means,
  sum over size plus a small constant, multiplied back against the one-hot matrix. Each product is split into a
  value rounded to a narrower format and the remainder; over the extended reals the rounding is the identity, so
  the remainder is the value minus itself, which is zero for a real value — the one place finiteness is used. The
  reference adds every pixel's row onto segment 21 · batch + label and takes each pixel's segment back; for labels
  among the 21 classes the segments of a batch are that batch's classes, and its closing choice between the gathered
  value and the image keeps the gathered value. Both end at the specification's result (Proof/Spec.lean):
  Proof/KernelValue.lean for the kernel program, Proof/RefValue.lean for the reference, the precondition read by
  Proof/PreDecode.lean.
-/
import proofs.«419666_j38439957300009_3_alg».proof.Defs
import proofs.«419666_j38439957300009_3_alg».proof.Proof.Gen.Kernel
import proofs.«419666_j38439957300009_3_alg».proof.Proof.Gen.Kernel.Frame
import proofs.«419666_j38439957300009_3_alg».proof.Proof.Gen.KernelIdeal
import proofs.«419666_j38439957300009_3_alg».proof.Proof.Gen.KernelIdeal.Frame
import proofs.«419666_j38439957300009_3_alg».proof.Proof.Gen.ReferenceIdeal
import proofs.«419666_j38439957300009_3_alg».proof.Proof.Gen.ReferenceIdeal.Run
import proofs.«419666_j38439957300009_3_alg».proof.Proof.Gen.ReferenceIdeal.Read
import proofs.«419666_j38439957300009_3_alg».proof.Proof.Gen.Pre_finite_inputs
import proofs.«419666_j38439957300009_3_alg».proof.Proof.KernelValue
import proofs.«419666_j38439957300009_3_alg».proof.Proof.RefValue
import proofs.«419666_j38439957300009_3_alg».proof.Proof.PreDecode

noncomputable section

namespace Cert.Proof

open Idealize.ShloMosaic Idealize.SL.Sem Cert.SegMean

/-- The three programs run, nothing faulting, and leave their arguments as launched: the two kernel programs by their
    frames, the reference by its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two removed round trips through the narrower format: over the extended reals a change of format is the identity. -/
theorem preserves : Cert.preserves_Kernel_KernelIdeal :=
  ⟨IdealRules.truncf_extf.statement _ .f32 .bf16, IdealRules.truncf_extf.statement _ .f32 .bf16⟩

/-- From memories agreeing on the image and the labels, the image finite and every label a class, both programs end
    with the specification's result. -/
theorem algebraic : Cert.algebraic_KernelIdeal_ReferenceIdeal := by
  intro m ρ m' ρ' hpre hagree
  have hdec := fun c => Cert.PreDecode.of_pre _ _ (hpre c)
  refine ⟨fun c => result (Cert.KernelIdeal.KernelValue.imgOf m c) (Cert.KernelIdeal.KernelValue.gtOf m c),
    Cert.KernelIdeal.KernelValue.run m ρ (fun c => (hdec c).1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2]
  exact Cert.ReferenceIdeal.RefValue.ref_value _ _ (hdec c).1 (hdec c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
